-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x165 : Shape := ⟨2, ![200000, 165]⟩
abbrev S2x500000 : Shape := ⟨2, ![2, 500000]⟩
abbrev S165x256 : Shape := ⟨2, ![165, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S200000x165 : S_.BroadcastsInDim S200000x165 (![] : Fin 0 → Fin S200000x165.rank)
  reducesTo_S200000x165_S_d0_1 : S200000x165.ReducesTo [0, 1] S_
  h_S_ : 0 < S_.numel
  bcast_S_S165x256 : S_.BroadcastsInDim S165x256 (![] : Fin 0 → Fin S165x256.rank)
  reducesTo_S165x256_S_d0_1 : S165x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S256x2 .f32) (main_arg6 : FVec F S256x2 .f32) (main_arg7 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x2 .f32 := Host.absf main_arg5
  let main_cst_6 : FVec F S_ .f32 := constant S_ .f32 0x7F800000#32
  let main_v20 : FVec F S256x2 .f32 := broadcastInDim S256x2 ![] bcast_S_S256x2 main_cst_6
  let main_v21 : IVec S256x2 1 := cmpf .olt main_v19 main_v20
  let main_c_7 : IVec S_ 1 := constantI S_ 1 1#1
  let main_v22 : IVec S_ 1 := (fun x v => Host.reduce IntOp.andi x v reducesTo_S256x2_S_d0_1 h_S_) main_v21 main_c_7
  let main_v23 : IVec S_ 1 := andi main_v18 main_v22
  let main_v24 : FVec F S256x2 .f32 := Host.absf main_arg6
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S200000x165 .f32) (main_arg1 : IVec S2x500000 32) (main_arg2 : FVec F S165x256 .f32) (main_arg3 : FVec F S165x256 .f32) (main_arg4 : FVec F S256 .f32) (main_arg5 : FVec F S256x2 .f32) (main_arg6 : FVec F S256x2 .f32) (main_arg7 : FVec F S2 .f32) : IVec S_ 1 :=
  let main_v0 : FVec F S200000x165 .f32 := Host.absf main_arg0
  let main_cst : FVec F S_ .f32 := constant S_ .f32 0x7F800000#32
  let main_v1 : FVec F S200000x165 .f32 := broadcastInDim S200000x165 ![] bcast_S_S200000x165 main_cst
  let main_v2 : IVec S200000x165 1 := cmpf .olt main_v0 main_v1
  let main_c : IVec S_ 1 := constantI S_ 1 1#1
  let main_v3 : IVec S_ 1 := (fun x v => Host.reduce IntOp.andi x v reducesTo_S200000x165_S_d0_1 h_S_) main_v2 main_c
  let main_v4 : FVec F S165x256 .f32 := Host.absf main_arg2
  let main_cst_0 : FVec F S_ .f32 := constant S_ .f32 0x7F800000#32
  let main_v5 : FVec F S165x256 .f32 := broadcastInDim S165x256 ![] bcast_S_S165x256 main_cst_0
  let main_v6 : IVec S165x256 1 := cmpf .olt main_v4 main_v5
  let main_c_1 : IVec S_ 1 := constantI S_ 1 1#1
  let main_v7 : IVec S_ 1 := (fun x v => Host.reduce IntOp.andi x v reducesTo_S165x256_S_d0_1 h_S_) main_v6 main_c_1
  let main_v8 : IVec S_ 1 := andi main_v3 main_v7
  let main_v9 : FVec F S165x256 .f32 := Host.absf main_arg3
  let main_cst_2 : FVec F S_ .f32 := constant S_ .f32 0x7F800000#32
  let main_v10 : FVec F S165x256 .f32 := broadcastInDim S165x256 ![] bcast_S_S165x256 main_cst_2
  let main_v11 : IVec S165x256 1 := cmpf .olt main_v9 main_v10
  let main_c_3 : IVec S_ 1 := constantI S_ 1 1#1
  let main_v12 : IVec S_ 1 := (fun x v => Host.reduce IntOp.andi x v reducesTo_S165x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S200000x165 : Shape := ⟨2, ![200000, 165]⟩
abbrev S2x500000 : Shape := ⟨2, ![2, 500000]⟩
abbrev S165x256 : Shape := ⟨2, ![165, 256]⟩
abbrev S256 : Shape := ⟨1, ![256]⟩
abbrev S256x2 : Shape := ⟨2, ![256, 2]⟩
abbrev S2 : Shape := ⟨1, ![2]⟩
abbrev S1x500000 : Shape := ⟨2, ![1, 500000]⟩
abbrev S500000 : Shape := ⟨1, ![500000]⟩
abbrev S_ : Shape := ⟨0, ![]⟩
abbrev S200000 : Shape := ⟨1, ![200000]⟩
abbrev S500000x1 : Shape := ⟨2, ![500000, 1]⟩
abbrev S200000x1 : Shape := ⟨2, ![200000, 1]⟩
abbrev S500000x165 : Shape := ⟨2, ![500000, 165]⟩
abbrev S1x256 : Shape := ⟨2, ![1, 256]⟩
abbrev S200000x256 : Shape := ⟨2, ![200000, 256]⟩
abbrev S200000x2 : Shape := ⟨2, ![200000, 2]⟩
abbrev S4000x165 : Shape := ⟨2, ![4000, 165]⟩
abbrev S4000x256 : Shape := ⟨2, ![4000, 256]⟩
abbrev S4000x2 : Shape := ⟨2, ![4000, 2]⟩
abbrev S500000x2 : Shape := ⟨2, ![500000, 2]⟩
abbrev S1x2 : Shape := ⟨2, ![1, 2]⟩

abbrev nBuf : Space → Nat
  | .hbm => 58
  | .vmem => 20
  | .smem => 0
  | _ => 0

abbrev bufTy : (tb : Table) → Fin (tcTables nBuf tb) → BufTy
  | .hbm, ⟨0, _⟩ => ⟨S200000x165, .f32⟩
  | .hbm, ⟨1, _⟩ => ⟨S2x500000, .i32⟩
  | .hbm, ⟨2, _⟩ => ⟨S165x256, .f32⟩
  | .hbm, ⟨3, _⟩ => ⟨S165x256, .f32⟩
  | .hbm, ⟨4, _⟩ => ⟨S256, .f32⟩
  | .hbm, ⟨5, _⟩ => ⟨S256x2, .f32⟩
  | .hbm, ⟨6, _⟩ => ⟨S256x2, .f32⟩
  | .hbm, ⟨7, _⟩ => ⟨S2, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .f32⟩
  | .hbm, ⟨13, _⟩ => ⟨S500000, .f32⟩
  | .hbm, ⟨14, _⟩ => ⟨S_, .f32⟩
  | .hbm, ⟨15, _⟩ => ⟨S200000, .f32⟩
  | .hbm, ⟨16, _⟩ => ⟨S500000x1, .i32⟩
  | .hbm, ⟨17, _⟩ => ⟨S200000, .f32⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S200000x1, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x165, .f32⟩
  | .hbm, ⟨31, _⟩ => ⟨S_, .f32⟩
  | .hbm, ⟨32, _⟩ => ⟨S200000x165, .f32⟩
  | .hbm, ⟨33, _⟩ => ⟨S500000x1, .i32⟩
  | .hbm, ⟨34, _⟩ => ⟨S200000x165, .f32⟩
  | .hbm, ⟨35, _⟩ => ⟨S200000x165, .f32⟩
  | .hbm, ⟨36, _⟩ => ⟨S200000x165, .f32⟩
  | .hbm, ⟨37, _⟩ => ⟨S200000x165, .bf16⟩
  | .hbm, ⟨38, _⟩ => ⟨S1x256, .f32⟩
  | .hbm, ⟨39, _⟩ => ⟨S200000x256, .bf16⟩
  | .hbm, ⟨40, _⟩ => ⟨S200000x2, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x2, .f32⟩
  | .hbm, ⟨50, _⟩ => ⟨S_, .f32⟩
  | .hbm, ⟨51, _⟩ => ⟨S200000x2, .f32⟩
  | .hbm, ⟨52, _⟩ => ⟨S500000x1, .i32⟩
  | .hbm, ⟨53, _⟩ => ⟨S200000x2, .f32⟩
  | .hbm, ⟨54, _⟩ => ⟨S200000x2, .f32⟩
  | .hbm, ⟨55, _⟩ => ⟨S200000x2, .f32⟩
  | .hbm, ⟨56, _⟩ => ⟨S1x2, .f32⟩
  | .hbm, ⟨57, _⟩ => ⟨S200000x2, .f32⟩
  | .local _ .vmem, ⟨0, _⟩ => ⟨S4000x165, .bf16⟩
  | .local _ .vmem, ⟨1, _⟩ => ⟨S4000x165, .bf16⟩
  | .local _ .vmem, ⟨2, _⟩ => ⟨S4000x165, .f32⟩
  | .local _ .vmem, ⟨3, _⟩ => ⟨S4000x165, .f32⟩
  | .local _ .vmem, ⟨4, _⟩ => ⟨S165x256, .f32⟩
  | .local _ .vmem, ⟨5, _⟩ => ⟨S165x256, .f32⟩
  | .local _ .vmem, ⟨6, _⟩ => ⟨S1x256, .f32⟩
  | .local _ .vmem, ⟨7, _⟩ => ⟨S256x2, .f32⟩
  | .local _ .vmem, ⟨8, _⟩ => ⟨S4000x256, .bf16⟩
  | .local _ .vmem, ⟨9, _⟩ => ⟨S4000x256, .bf16⟩
  | .local _ .vmem, ⟨10, _⟩ => ⟨S4000x2, .f32⟩
  | .local _ .vmem, ⟨11, _⟩ => ⟨S4000x2, .f32⟩
  | .local _ .vmem, ⟨12, _⟩ => ⟨S4000x2, .f32⟩
  | .local _ .vmem, ⟨13, _⟩ => ⟨S4000x2, .f32⟩
  | .local _ .vmem, ⟨14, _⟩ => ⟨S4000x256, .bf16⟩
  | .local _ .vmem, ⟨15, _⟩ => ⟨S4000x256, .bf16⟩
  | .local _ .vmem, ⟨16, _⟩ => ⟨S256x2, .f32⟩
  | .local _ .vmem, ⟨17, _⟩ => ⟨S1x2, .f32⟩
  | .local _ .vmem, ⟨18, _⟩ => ⟨S4000x2, .f32⟩
  | .local _ .vmem, ⟨19, _⟩ => ⟨S4000x2, .f32⟩
  | _, _ => ⟨S200000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x165 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x165 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S165x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S165x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S200000 : S_.BroadcastsInDim S200000 (![] : Fin 0 → Fin S200000.rank)
  bcast_S500000_S500000x1_0 : S500000.BroadcastsInDim S500000x1 (![0] : Fin 1 → Fin S500000x1.rank)
  bcast_S200000_S200000x1_0 : S200000.BroadcastsInDim S200000x1 (![0] : Fin 1 → Fin S200000x1.rank)
  bcast_S_S200000x165 : S_.BroadcastsInDim S200000x165 (![] : Fin 0 → Fin S200000x165.rank)
  bcast_S200000x1_S200000x165_0_1 : S200000x1.BroadcastsInDim S200000x165 (![0, 1] : Fin 2 → Fin S200000x165.rank)
  bitsLt_bf16_f32 : FTy.bits .bf16 < FTy.bits .f32
  shapeCasts_S256_S1x256 : S256.ShapeCasts S1x256
  inb_S4000x165_S4000x165_0_0 : ∀ a, (![0, 0] : Fin 2 → Nat) a + S4000x165.size a ≤ S4000x165.size a
  h_S4000x165 : 0 < S4000x165.numel
  shapeCasts_S4000x165_S4000x165 : S4000x165.ShapeCasts S4000x165
  inb_S165x256_S165x256_0_0 : ∀ a, (![0, 0] : Fin 2 → Nat) a + S165x256.size a ≤ S165x256.size a
  h_S165x256 : 0 < S165x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  packedbf16_S4000x256_S4000x256_0_0 : (Rect.unit (s := S4000x256) ![0, 0] S4000x256.size inb_S4000x256_S4000x256_0_0).PackedRows (EltTy.packing .bf16)
  inb_S256x2_S256x2_0_0 : ∀ a, (![0, 0] : Fin 2 → Nat) a + S256x2.size a ≤ S256x2.size a
  h_S256x2 : 0 < S256x2.numel
  inb_S4000x2_S4000x2_0_0 : ∀ a, (![0, 0] : Fin 2 → Nat) a + S4000x2.size a ≤ S4000x2.size a
  h_S4000x2 : 0 < S4000x2.numel
  bcast_S_S200000x2 : S_.BroadcastsInDim S200000x2 (![] : Fin 0 → Fin S200000x2.rank)
  bcast_S200000x1_S200000x2_0_1 : S200000x1.BroadcastsInDim S200000x2 (![0, 1] : Fin 2 → Fin S200000x2.rank)
  shapeCasts_S2_S1x2 : S2.ShapeCasts S1x2
  shapeCasts_S4000x256_S4000x256 : S4000x256.ShapeCasts S4000x256
  shapeCasts_S4000x2_S4000x2 : S4000x2.ShapeCasts S4000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  scatter_S200000_S500000x1_S500000_n_0_0_1_wf : ScatterDims.WF S200000 S500000x1 S500000 [] [0] [0] 1
  gather_S200000x165_S500000x1_S500000x165_1_0_n_n_0_1_1165_wf : GatherDims.WF S200000x165 S500000x1 S500000x165 [1] [0] [] [0] [] 1 ![1, 165]
  scatter_S200000x165_S500000x1_S500000x165_1_0_0_1_wf : ScatterDims.WF S200000x165 S500000x1 S500000x165 [1] [0] [0] 1
  dot_S4000x165_S165x256_S4000x256_1_0_0_1_n_n_wf : DotDims.WF S4000x165 S165x256 S4000x256 [1] [0] [0] [1] [] []
  dot_S4000x256_S256x2_S4000x2_1_0_0_1_n_n_wf : DotDims.WF S4000x256 S256x2 S4000x2 [1] [0] [0] [1] [] []
  gather_S200000x2_S500000x1_S500000x2_1_0_n_n_0_1_12_wf : GatherDims.WF S200000x2 S500000x1 S500000x2 [1] [0] [] [0] [] 1 ![1, 2]
  scatter_S200000x2_S500000x1_S500000x2_1_0_0_1_wf : ScatterDims.WF S200000x2 S500000x1 S500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x165.size a ≤ S200000x165.size a
  hwx0_0 : ∀ i : grid0.Coords, EltTy.bits .bf16 = 32 ∨ (Rect.block (s := S200000x165) S4000x165.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x165.size a ≤ S200000x165.size a
  hwx0_1 : ∀ i : grid0.Coords, EltTy.bits .f32 = 32 ∨ (Rect.block (s := S200000x165) S4000x165.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S165x256.size a ≤ S165x256.size a
  hwx0_2 : ∀ i : grid0.Coords, EltTy.bits .f32 = 32 ∨ (Rect.block (s := S165x256) S165x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S165x256.size a ≤ S165x256.size a
  hwx0_3 : ∀ i : grid0.Coords, EltTy.bits .f32 = 32 ∨ (Rect.block (s := S165x256) S165x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S256x2.size a
  hwx0_5 : ∀ i : grid0.Coords, EltTy.bits .f32 = 32 ∨ (Rect.block (s := S256x2) S256x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S200000x256.size a
  hwx0_6 : ∀ i : grid0.Coords, EltTy.bits .bf16 = 32 ∨ (Rect.block (s := S200000x256) S4000x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x2.size a ≤ S200000x2.size a
  hwx0_7 : ∀ i : grid0.Coords, EltTy.bits .f32 = 32 ∨ (Rect.block (s := S200000x2) S4000x2.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x2.size a ≤ S200000x2.size a
  hwx1_0 : ∀ i : grid1.Coords, EltTy.bits .f32 = 32 ∨ (Rect.block (s := S200000x2) S4000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S200000x256.size a
  hwx1_1 : ∀ i : grid1.Coords, EltTy.bits .bf16 = 32 ∨ (Rect.block (s := S200000x256) S4000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x2.size a ≤ S256x2.size a
  hwx1_2 : ∀ i : grid1.Coords, EltTy.bits .f32 = 32 ∨ (Rect.block (s := S256x2) S256x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x2.size a ≤ S200000x2.size a
  hwx1_4 : ∀ i : grid1.Coords, EltTy.bits .f32 = 32 ∨ (Rect.block (s := S200000x2) S4000x2.size (cc1_transform_4 i) (hinb1_4 i)).WholeWords (EltTy.packing .f32)

variable [Facts₀]

def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def gather_S200000x165_S500000x1_S500000x165_1_0_n_n_0_1_1165 : GatherDims S200000x165 S500000x1 S500000x165 where
  offsetDims := [1]
  collapsedSliceDims := [0]
  operandBatchingDims := []
  startIndicesBatchingDims := []
  startIndexMap := [0]
  indexVectorDim := 1
  sliceSizes := ![1, 165]
  wf := gather_S200000x165_S500000x1_S500000x165_1_0_n_n_0_1_1165_wf
def scatter_S200000x165_S500000x1_S500000x165_1_0_0_1 : ScatterDims S200000x165 S500000x1 S500000x165 where
  updateWindowDims := [1]
  insertedWindowDims := [0]
  scatterDimsToOperandDims := [0]
  indexVectorDim := 1
  wf := scatter_S200000x165_S500000x1_S500000x165_1_0_0_1_wf
def dot_S4000x165_S165x256_S4000x256_1_0_0_1_n_n : DotDims S4000x165 S165x256 S4000x256 where
  lhsContracting := [1]
  rhsContracting := [0]
  lhsNonContracting := [0]
  rhsNonContracting := [1]
  lhsBatch := []
  rhsBatch := []
  wf := dot_S4000x165_S165x256_S4000x256_1_0_0_1_n_n_wf
def dot_S4000x256_S256x2_S4000x2_1_0_0_1_n_n : DotDims S4000x256 S256x2 S4000x2 where
  lhsContracting := [1]
  rhsContracting := [0]
  lhsNonContracting := [0]
  rhsNonContracting := [1]
  lhsBatch := []
  rhsBatch := []
  wf := dot_S4000x256_S256x2_S4000x2_1_0_0_1_n_n_wf
def gather_S200000x2_S500000x1_S500000x2_1_0_n_n_0_1_12 : GatherDims S200000x2 S500000x1 S500000x2 where
  offsetDims := [1]
  collapsedSliceDims := [0]
  operandBatchingDims := []
  startIndicesBatchingDims := []
  startIndexMap := [0]
  indexVectorDim := 1
  sliceSizes := ![1, 2]
  wf := gather_S200000x2_S500000x1_S500000x2_1_0_n_n_0_1_12_wf
def scatter_S200000x2_S500000x1_S500000x2_1_0_0_1 : ScatterDims S200000x2 S500000x1 S500000x2 where
  updateWindowDims := [1]
  insertedWindowDims := [0]
  scatterDimsToOperandDims := [0]
  indexVectorDim := 1
  wf := scatter_S200000x2_S500000x1_S500000x2_1_0_0_1_wf

abbrev win0_0 : Pipeline.Window sig grid0 :=
  Pipeline.Window.ofSpec (Memref.whole main_v23) S4000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x165.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S165x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S165x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25_0) S4000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25_1) S4000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v37) S4000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_0) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S4000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S200000x165 : Shape := ⟨2, ![200000, 165]⟩
abbrev S2x500000 : Shape := ⟨2, ![2, 500000]⟩
abbrev S165x256 : Shape := ⟨2, ![165, 256]⟩
abbrev S256 : Shape := ⟨1, ![256]⟩
abbrev S256x2 : Shape := ⟨2, ![256, 2]⟩
abbrev S2 : Shape := ⟨1, ![2]⟩
abbrev S1x500000 : Shape := ⟨2, ![1, 500000]⟩
abbrev S500000 : Shape := ⟨1, ![500000]⟩
abbrev S_ : Shape := ⟨0, ![]⟩
abbrev S200000 : Shape := ⟨1, ![200000]⟩
abbrev S500000x1 : Shape := ⟨2, ![500000, 1]⟩
abbrev S500000x165 : Shape := ⟨2, ![500000, 165]⟩
abbrev S200000x1 : Shape := ⟨2, ![200000, 1]⟩
abbrev S200000x256 : Shape := ⟨2, ![200000, 256]⟩
abbrev S1x256 : Shape := ⟨2, ![1, 256]⟩
abbrev S500000x256 : Shape := ⟨2, ![500000, 256]⟩
abbrev S200000x2 : Shape := ⟨2, ![200000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S200000x165, .f32⟩
  | .hbm, ⟨1, _⟩ => ⟨S2x500000, .i32⟩
  | .hbm, ⟨2, _⟩ => ⟨S165x256, .f32⟩
  | .hbm, ⟨3, _⟩ => ⟨S165x256, .f32⟩
  | .hbm, ⟨4, _⟩ => ⟨S256, .f32⟩
  | .hbm, ⟨5, _⟩ => ⟨S256x2, .f32⟩
  | .hbm, ⟨6, _⟩ => ⟨S256x2, .f32⟩
  | .hbm, ⟨7, _⟩ => ⟨S2, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .f32⟩
  | .hbm, ⟨13, _⟩ => ⟨S500000, .f32⟩
  | .hbm, ⟨14, _⟩ => ⟨S_, .f32⟩
  | .hbm, ⟨15, _⟩ => ⟨S200000, .f32⟩
  | .hbm, ⟨16, _⟩ => ⟨S500000x1, .i32⟩
  | .hbm, ⟨17, _⟩ => ⟨S200000, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x165, .f32⟩
  | .hbm, ⟨27, _⟩ => ⟨S_, .f32⟩
  | .hbm, ⟨28, _⟩ => ⟨S200000x165, .f32⟩
  | .hbm, ⟨29, _⟩ => ⟨S500000x1, .i32⟩
  | .hbm, ⟨30, _⟩ => ⟨S200000x165, .f32⟩
  | .hbm, ⟨31, _⟩ => ⟨S_, .f32⟩
  | .hbm, ⟨32, _⟩ => ⟨S200000, .f32⟩
  | .hbm, ⟨33, _⟩ => ⟨S200000, .f32⟩
  | .hbm, ⟨34, _⟩ => ⟨S200000x1, .f32⟩
  | .hbm, ⟨35, _⟩ => ⟨S200000x165, .f32⟩
  | .hbm, ⟨36, _⟩ => ⟨S200000x165, .f32⟩
  | .hbm, ⟨37, _⟩ => ⟨S200000x256, .f32⟩
  | .hbm, ⟨38, _⟩ => ⟨S200000x256, .f32⟩
  | .hbm, ⟨39, _⟩ => ⟨S200000x256, .f32⟩
  | .hbm, ⟨40, _⟩ => ⟨S1x256, .f32⟩
  | .hbm, ⟨41, _⟩ => ⟨S200000x256, .f32⟩
  | .hbm, ⟨42, _⟩ => ⟨S200000x256, .f32⟩
  | .hbm, ⟨43, _⟩ => ⟨S_, .f32⟩
  | .hbm, ⟨44, _⟩ => ⟨S200000x256, .f32⟩
  | .hbm, ⟨45, _⟩ => ⟨S200000x256, .f32⟩
  | .hbm, ⟨46, _⟩ => ⟨S1x500000, .i32⟩
  | .hbm, ⟨47, _⟩ => ⟨S500000, .i32⟩
  | .hbm, ⟨48, _⟩ => ⟨S1x500000, .i32⟩
  | .hbm, ⟨49, _⟩ => ⟨S500000, .i32⟩
  | .hbm, ⟨50, _⟩ => ⟨S_, .f32⟩
  | .hbm, ⟨51, _⟩ => ⟨S500000, .f32⟩
  | .hbm, ⟨52, _⟩ => ⟨S_, .f32⟩
  | .hbm, ⟨53, _⟩ => ⟨S200000, .f32⟩
  | .hbm, ⟨54, _⟩ => ⟨S500000x1, .i32⟩
  | .hbm, ⟨55, _⟩ => ⟨S200000, .f32⟩
  | .hbm, ⟨56, _⟩ => ⟨S_, .i32⟩
  | .hbm, ⟨57, _⟩ => ⟨S500000, .i32⟩
  | .hbm, ⟨58, _⟩ => ⟨S500000, .i1⟩
  | .hbm, ⟨59, _⟩ => ⟨S_, .i32⟩
  | .hbm, ⟨60, _⟩ => ⟨S500000, .i32⟩
  | .hbm, ⟨61, _⟩ => ⟨S500000, .i32⟩
  | .hbm, ⟨62, _⟩ => ⟨S500000, .i32⟩
  | .hbm, ⟨63, _⟩ => ⟨S500000x1, .i32⟩
  | .hbm, ⟨64, _⟩ => ⟨S500000x256, .f32⟩
  | .hbm, ⟨65, _⟩ => ⟨S_, .f32⟩
  | .hbm, ⟨66, _⟩ => ⟨S200000x256, .f32⟩
  | .hbm, ⟨67, _⟩ => ⟨S500000x1, .i32⟩
  | .hbm, ⟨68, _⟩ => ⟨S200000x256, .f32⟩
  | .hbm, ⟨69, _⟩ => ⟨S_, .f32⟩
  | .hbm, ⟨70, _⟩ => ⟨S200000, .f32⟩
  | .hbm, ⟨71, _⟩ => ⟨S200000, .f32⟩
  | .hbm, ⟨72, _⟩ => ⟨S200000x1, .f32⟩
  | .hbm, ⟨73, _⟩ => ⟨S200000x256, .f32⟩
  | .hbm, ⟨74, _⟩ => ⟨S200000x256, .f32⟩
  | .hbm, ⟨75, _⟩ => ⟨S200000x2, .f32⟩
  | .hbm, ⟨76, _⟩ => ⟨S200000x2, .f32⟩
  | .hbm, ⟨77, _⟩ => ⟨S200000x2, .f32⟩
  | .hbm, ⟨78, _⟩ => ⟨S1x2, .f32⟩
  | .hbm, ⟨79, _⟩ => ⟨S200000x2, .f32⟩
  | .hbm, ⟨80, _⟩ => ⟨S200000x2, .f32⟩
  | _, _ => ⟨S200000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S200000 : S_.BroadcastsInDim S200000 (![] : Fin 0 → Fin S200000.rank)
  bcast_S500000_S500000x1_0 : S500000.BroadcastsInDim S500000x1 (![0] : Fin 1 → Fin S500000x1.rank)
  bcast_S_S200000x165 : S_.BroadcastsInDim S200000x165 (![] : Fin 0 → Fin S200000x165.rank)
  bcast_S200000_S200000x1_0 : S200000.BroadcastsInDim S200000x1 (![0] : Fin 1 → Fin S200000x1.rank)
  bcast_S200000x1_S200000x165_0_1 : S200000x1.BroadcastsInDim S200000x165 (![0, 1] : Fin 2 → Fin S200000x165.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S200000x1_S200000x256_0_1 : S200000x1.BroadcastsInDim S200000x256 (![0, 1] : Fin 2 → Fin S200000x256.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S500000x1_S500000_n_0_0_1_wf : ScatterDims.WF S200000 S500000x1 S500000 [] [0] [0] 1
  gather_S200000x165_S500000x1_S500000x165_1_0_n_n_0_1_1165_wf : GatherDims.WF S200000x165 S500000x1 S500000x165 [1] [0] [] [0] [] 1 ![1, 165]
  scatter_S200000x165_S500000x1_S500000x165_1_0_0_1_wf : ScatterDims.WF S200000x165 S500000x1 S500000x165 [1] [0] [0] 1
  dot_S200000x165_S165x256_S200000x256_1_0_0_1_n_n_wf : DotDims.WF S200000x165 S165x256 S200000x256 [1] [0] [0] [1] [] []
  gather_S200000x256_S500000x1_S500000x256_1_0_n_n_0_1_1256_wf : GatherDims.WF S200000x256 S500000x1 S500000x256 [1] [0] [] [0] [] 1 ![1, 256]
  scatter_S200000x256_S500000x1_S500000x256_1_0_0_1_wf : ScatterDims.WF S200000x256 S500000x1 S500000x256 [1] [0] [0] 1
  dot_S200000x256_S256x2_S200000x2_1_0_0_1_n_n_wf : DotDims.WF S200000x256 S256x2 S200000x2 [1] [0] [0] [1] [] []

variable [Facts₀]

def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def gather_S200000x165_S500000x1_S500000x165_1_0_n_n_0_1_1165 : GatherDims S200000x165 S500000x1 S500000x165 where
  offsetDims := [1]
  collapsedSliceDims := [0]
  operandBatchingDims := []
  startIndicesBatchingDims := []
  startIndexMap := [0]
  indexVectorDim := 1
  sliceSizes := ![1, 165]
  wf := gather_S200000x165_S500000x1_S500000x165_1_0_n_n_0_1_1165_wf
def scatter_S200000x165_S500000x1_S500000x165_1_0_0_1 : ScatterDims S200000x165 S500000x1 S500000x165 where
  updateWindowDims := [1]
  insertedWindowDims := [0]
  scatterDimsToOperandDims := [0]
  indexVectorDim := 1
  wf := scatter_S200000x165_S500000x1_S500000x165_1_0_0_1_wf
def dot_S200000x165_S165x256_S200000x256_1_0_0_1_n_n : DotDims S200000x165 S165x256 S200000x256 where
  lhsContracting := [1]
  rhsContracting := [0]
  lhsNonContracting := [0]
  rhsNonContracting := [1]
  lhsBatch := []
  rhsBatch := []
  wf := dot_S200000x165_S165x256_S200000x256_1_0_0_1_n_n_wf
def gather_S200000x256_S500000x1_S500000x256_1_0_n_n_0_1_1256 : GatherDims S200000x256 S500000x1 S500000x256 where
  offsetDims := [1]
  collapsedSliceDims := [0]
  operandBatchingDims := []
  startIndicesBatchingDims := []
  startIndexMap := [0]
  indexVectorDim := 1
  sliceSizes := ![1, 256]
  wf := gather_S200000x256_S500000x1_S500000x256_1_0_n_n_0_1_1256_wf
def scatter_S200000x256_S500000x1_S500000x256_1_0_0_1 : ScatterDims S200000x256 S500000x1 S500000x256 where
  updateWindowDims := [1]
  insertedWindowDims := [0]
  scatterDimsToOperandDims := [0]
  indexVectorDim := 1
  wf := scatter_S200000x256_S500000x1_S500000x256_1_0_0_1_wf
def dot_S200000x256_S256x2_S200000x2_1_0_0_1_n_n : DotDims S200000x256 S256x2 S200000x2 where
  lhsContracting := [1]
  rhsContracting := [0]
  lhsNonContracting := [0]
  rhsNonContracting := [1]
  lhsBatch := []
  rhsBatch := []
  wf := dot_S200000x256_S256x2_S200000x2_1_0_0_1_n_n_wf

class Facts : Prop extends Facts₀ where

variable [Facts]
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.LibRowOps.lean ====
/-
  Whole rows gathered and whole rows scattered, read at an index.

  `x[idx]` of a rank-2 array `x : [N, C]` at a list of `E` row numbers lowers to a `stablehlo.gather` whose start
  indices are an `[E, 1]` array: result row `e` is operand row `idx[e, 0]`, read as a signed integer and clamped
  into `[0, N − 1]` (`srcRow`). A segment sum over `E` rows lowers to a `stablehlo.scatter` with an `add` body whose
  scatter indices are an `[E, 1]` array: update row `e` is added onto operand row `idx[e, 0]`, read as a signed
  integer, when that is inside `[0, N)`, and dropped otherwise (`dstRow?`). The column is untouched by both. So at
  the exact instance a scattered sum read at `(i, c)` is the operand's element plus the sum, over the edges whose
  row lands on `i`, of the update's element in column `c`. The rank-1 form (a segment sum of a flat array) is the same
  without the column.
-/
import Idealize.ShloMosaic.PureOps.Ideal
import Idealize.ShloMosaic.Lib.ValueIdx

noncomputable section

open scoped BigOperators

namespace RowOps

open Idealize.ShloMosaic Idealize.ShloMosaic.ValueIdx

/-- The dimension numbers of a gather of whole rows: operand `[N, C]`, start indices `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a scatter of whole rows: operand `[N, C]`, scatter indices `[E, 1]`, updates `[E, C]`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of single elements of a flat array: operand `[N]`, scatter indices `[E, 1]`,
    updates `[E]`. -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row edge `e` reads: its start index, read signed and clamped into `[0, N − 1]`. -/
def srcRow {N E w : Nat} (hN : 0 < N) (idx : IVec ⟨2, ![E, 1]⟩ w) (e : Fin E) : Fin N :=
  ⟨min (idx (ix2 e (0 : Fin 1))).toInt.toNat (N - 1), by omega⟩

/-- The row edge `e`'s update lands on: its scatter index, read signed, when it is inside `[0, N)`; none otherwise
    (the update is dropped). -/
def dstRow? (N : Nat) {E w : Nat} (idx : IVec ⟨2, ![E, 1]⟩ w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

/-- A gather of whole rows read at `(e, c)`: the operand at row `srcRow e`, column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (srcRow hN idx e) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have h10 : ¬ ((1 : Fin 2) = 0) := by decide
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show ¬ (1 : Fin 2) ∈ (rowGather N E C wf).startIndexMap from
      fun h => h10 (List.mem_singleton.mp h))]
    unfold GatherDims.offCoord
    rw [dif_pos (show (1 : Fin 2) ∈ (rowGather N E C wf).sKept from
      (GatherDims.mem_sKept _ _).mpr ⟨fun h => h10 (List.mem_singleton.mp h), List.not_mem_nil⟩)]
    simp only [Nat.zero_add]
    rfl

/-- On the row axis the scatter's window starts at the edge's scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx 1 = 0 := by
  have h10 : ¬ ((1 : Fin 2) = 0) := by decide
  unfold ScatterDims.start
  rw [dif_neg (show ¬ (1 : Fin 2) ∈ (rowScatter N E C wf).scatterDimsToOperandDims from
    fun h => h10 (List.mem_singleton.mp h))]

/-- The row axis is inserted: its window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatter N E C wf).window (ix2 e c) 0 = 0 := by
  unfold ScatterDims.window
  rw [dif_neg (show ¬ (0 : Fin 2) ∈ (rowScatter N E C wf).sKept from by
    simp [ScatterDims.sKept, Shape.kept, List.mem_filter])]

/-- The column axis is the window's: its window coordinate is the update's column. -/
theorem rowScatter_window1 {N E C : Nat} (wf : ScatterDims.WF ⟨2, ![N, C]⟩ ⟨2, ![E, 1]⟩ ⟨2, ![E, C]⟩ [1] [0] [0] 1)
    (e : Fin E) (c : Fin C) : (rowScatter N E C wf).window (ix2 e c) 1 = c.val := by
  have h10 : ¬ ((1 : Fin 2) = 0) := by decide
  unfold ScatterDims.window
  rw [dif_pos (show (1 : Fin 2) ∈ (rowScatter N E C wf).sKept from by
    simp [ScatterDims.sKept, Shape.kept, List.mem_filter, List.mem_finRange, h10])]
  rfl

/-- Where update `(e, c)` of a scatter of whole rows lands: on `(i, c)` when edge `e` lands on row `i`, nowhere when
    the edge's scatter index is outside `[0, N)`. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx = (dstRow? N idx e).map (fun i => ix2 i c) := by
  have h0 := rowScatter_start0 wf idx e c
  have h1 := rowScatter_start1 wf idx e c
  have hw0 := rowScatter_window0 wf e c
  have hw1 := rowScatter_window1 wf e c
  unfold ScatterDims.resultIdx? dstRow?
  by_cases h : 0 ≤ (idx (ix2 e (0 : Fin 1))).toInt ∧ (idx (ix2 e (0 : Fin 1))).toInt < N
  · have hall : ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro a
      match a with
      | ⟨0, _⟩ =>
        show 0 ≤ (rowScatter N E C wf).start (ix2 e c) idx 0 + ((rowScatter N E C wf).window (ix2 e c) 0 : Nat) ∧
          (rowScatter N E C wf).start (ix2 e c) idx 0 + ((rowScatter N E C wf).window (ix2 e c) 0 : Nat) < (N : Int)
        rw [h0, hw0]; omega
      | ⟨1, _⟩ =>
        show 0 ≤ (rowScatter N E C wf).start (ix2 e c) idx 1 + ((rowScatter N E C wf).window (ix2 e c) 1 : Nat) ∧
          (rowScatter N E C wf).start (ix2 e c) idx 1 + ((rowScatter N E C wf).window (ix2 e c) 1 : Nat) < (C : Int)
        rw [h1, hw1]; have := c.isLt; omega
    rw [dif_pos hall, dif_pos h]
    show some _ = some _
    congr 1
    funext a
    refine Fin.ext ?_
    match a with
    | ⟨0, _⟩ =>
      show ((rowScatter N E C wf).start (ix2 e c) idx 0 + ((rowScatter N E C wf).window (ix2 e c) 0 : Nat)).toNat
        = (idx (ix2 e (0 : Fin 1))).toInt.toNat
      rw [h0, hw0]; simp
    | ⟨1, _⟩ =>
      show ((rowScatter N E C wf).start (ix2 e c) idx 1 + ((rowScatter N E C wf).window (ix2 e c) 1 : Nat)).toNat = c.val
      rw [h1, hw1]; simp
  · have hnot : ¬ ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro hall
      have := hall 0
      change 0 ≤ (rowScatter N E C wf).start (ix2 e c) idx 0 + ((rowScatter N E C wf).window (ix2 e c) 0 : Nat) ∧
          (rowScatter N E C wf).start (ix2 e c) idx 0 + ((rowScatter N E C wf).window (ix2 e c) 0 : Nat) < (N : Int) at this
      rw [h0, hw0] at this
      exact h (by omega)
    rw [dif_neg hnot, dif_neg h]
    rfl

/-- An accumulating scatter of whole rows, at the exact instance, read at `(i, c)`: the operand's element plus the
    sum over the edges that land on row `i` of the update's element in column `c`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (rowScatter N E C wf) x idx upd (ix2 i c)
      = x (ix2 i c) + ∑ e ∈ Finset.univ.filter (fun e : Fin E => dstRow? N idx e = some i), upd (ix2 e c) := by
  unfold Ideal.hostScatterAdd
  congr 1
  rw [Finset.sum_filter, Finset.sum_filter, sum_idx2]
  refine Finset.sum_congr rfl fun e _ => ?_
  have key : ∀ (i' : Fin N) (c' : Fin C), (ix2 i' c' = ix2 i c) ↔ (i' = i ∧ c' = c) := by
    intro i' c'
    constructor
    · intro hh
      exact ⟨congrFun hh 0, congrFun hh 1⟩
    · rintro ⟨rfl, rfl⟩; rfl
  simp only [rowScatter_resultIdx?]
  cases hd : dstRow? N idx e with
  | none => simp
  | some i' =>
    simp only [Option.map_some, Option.some.injEq, key]
    by_cases hi : i' = i
    · subst hi
      simp only [true_and, if_true]
      rw [Finset.sum_ite_eq' Finset.univ c (fun c' => upd (ix2 e c'))]
      simp
    · simp [hi]

/-- A rank-1 index set is its one coordinate's range … -/
def flatIdxEquiv {n : Nat} : (⟨1, ![n]⟩ : Shape).Idx ≃ Fin n where
  toFun j := j 0
  invFun a := ix1 a
  left_inv j := (eq_ix1 j).symm
  right_inv _ := rfl

/-- … so a sum over it is the sum over the coordinate. -/
theorem sum_flatIdx {M : Type*} [AddCommMonoid M] {n : Nat} (f : (⟨1, ![n]⟩ : Shape).Idx → M) :
    ∑ j, f j = ∑ a : Fin n, f (ix1 a) := by
  rw [← Equiv.sum_comp (flatIdxEquiv (n := n)).symm f]
  rfl

/-- A flat scatter's window starts at the edge's scatter index, read signed. -/
theorem flatScatter_start0 {N E w : Nat} (wf : ScatterDims.WF ⟨1, ![N]⟩ ⟨2, ![E, 1]⟩ ⟨1, ![E]⟩ [] [0] [0] 1)
    (idx : IVec ⟨2, ![E, 1]⟩ w) (e : Fin E) :
    (flatScatter N E wf).start (ix1 e) idx 0 = (idx (ix2 e (0 : Fin 1))).toInt := by
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Its one axis is inserted: the window coordinate is `0`. -/
theorem flatScatter_window0 {N E : Nat} (wf : ScatterDims.WF ⟨1, ![N]⟩ ⟨2, ![E, 1]⟩ ⟨1, ![E]⟩ [] [0] [0] 1)
    (e : Fin E) : (flatScatter N E wf).window (ix1 e) 0 = 0 := by
  unfold ScatterDims.window
  rw [dif_neg (show ¬ (0 : Fin 1) ∈ (flatScatter N E wf).sKept from by
    simp [ScatterDims.sKept, Shape.kept, List.mem_filter])]

/-- Where update `e` of a flat scatter lands: on `i` when edge `e` lands on `i`, nowhere when its scatter index is
    outside `[0, N)`. -/
theorem flatScatter_resultIdx? {N E w : Nat} (wf : ScatterDims.WF ⟨1, ![N]⟩ ⟨2, ![E, 1]⟩ ⟨1, ![E]⟩ [] [0] [0] 1)
    (idx : IVec ⟨2, ![E, 1]⟩ w) (e : Fin E) :
    (flatScatter N E wf).resultIdx? (ix1 e) idx = (dstRow? N idx e).map (fun i => ix1 i) := by
  have h0 := flatScatter_start0 wf idx e
  have hw0 := flatScatter_window0 wf e
  unfold ScatterDims.resultIdx? dstRow?
  by_cases h : 0 ≤ (idx (ix2 e (0 : Fin 1))).toInt ∧ (idx (ix2 e (0 : Fin 1))).toInt < N
  · have hall : ∀ a, 0 ≤ (flatScatter N E wf).start (ix1 e) idx a + (flatScatter N E wf).window (ix1 e) a ∧
        (flatScatter N E wf).start (ix1 e) idx a + (flatScatter N E wf).window (ix1 e) a
          < (⟨1, ![N]⟩ : Shape).size a := by
      intro a
      match a with
      | ⟨0, _⟩ =>
        show 0 ≤ (flatScatter N E wf).start (ix1 e) idx 0 + ((flatScatter N E wf).window (ix1 e) 0 : Nat) ∧
          (flatScatter N E wf).start (ix1 e) idx 0 + ((flatScatter N E wf).window (ix1 e) 0 : Nat) < (N : Int)
        rw [h0, hw0]; omega
    rw [dif_pos hall, dif_pos h]
    show some _ = some _
    congr 1
    funext a
    refine Fin.ext ?_
    match a with
    | ⟨0, _⟩ =>
      show ((flatScatter N E wf).start (ix1 e) idx 0 + ((flatScatter N E wf).window (ix1 e) 0 : Nat)).toNat
        = (idx (ix2 e (0 : Fin 1))).toInt.toNat
      rw [h0, hw0]; simp
  · have hnot : ¬ ∀ a, 0 ≤ (flatScatter N E wf).start (ix1 e) idx a + (flatScatter N E wf).window (ix1 e) a ∧
        (flatScatter N E wf).start (ix1 e) idx a + (flatScatter N E wf).window (ix1 e) a
          < (⟨1, ![N]⟩ : Shape).size a := by
      intro hall
      have := hall 0
      change 0 ≤ (flatScatter N E wf).start (ix1 e) idx 0 + ((flatScatter N E wf).window (ix1 e) 0 : Nat) ∧
          (flatScatter N E wf).start (ix1 e) idx 0 + ((flatScatter N E wf).window (ix1 e) 0 : Nat) < (N : Int) at this
      rw [h0, hw0] at this
      exact h (by omega)
    rw [dif_neg hnot, dif_neg h]
    rfl

/-- The same for a flat array: the operand's element plus the sum of the updates of the edges that land on `i`. -/
theorem scatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (i : Fin N) :
    Ideal.hostScatterAdd (flatScatter N E wf) x idx upd (ix1 i)
      = x (ix1 i) + ∑ e ∈ Finset.univ.filter (fun e : Fin E => dstRow? N idx e = some i), upd (ix1 e) := by
  unfold Ideal.hostScatterAdd
  congr 1
  rw [Finset.sum_filter, Finset.sum_filter, sum_flatIdx]
  refine Finset.sum_congr rfl fun e _ => ?_
  have key : ∀ i' : Fin N, (ix1 i' = ix1 i) ↔ i' = i := by
    intro i'
    exact ⟨fun hh => congrFun hh 0, fun hh => by rw [hh]⟩
  simp only [flatScatter_resultIdx?]
  cases hd : dstRow? N idx e with
  | none => simp
  | some i' =>
    simp only [Option.map_some, Option.some.injEq, key]

end RowOps

end
-- ==== Proof.LibMeanAgg.lean ====
/-
  Mean aggregation over a graph's in-edges, on the extended reals, and the law that it commutes with a matrix
  product on the right.

  For a node `i` the in-degree counts the edges that land on `i` (clamped below by one), and the mean aggregate of a
  feature array `x` at `(i, c)` is the sum over those edges of the source row's element in column `c`, divided by the
  degree. Aggregation is a weighted sum, hence linear: for FINITE features and weights, aggregating first and then
  multiplying by a matrix gives the same as multiplying every row first and aggregating the products. On the
  extended reals the law needs finiteness: it moves a factor across a sum and across the division.
-/
import proofs.«145353_j652835029486_1_alg».proof.Proof.LibRowOps

noncomputable section

open scoped BigOperators

namespace MeanAgg

open Idealize.ShloMosaic Idealize.ShloMosaic.ValueIdx RowOps

/-- An extended real that is a real number. -/
def IsReal (x : EReal) : Prop := ∃ r : ℝ, x = (r : EReal)

/-- The float word of `+0.0`, read exactly. -/
abbrev zeroE : EReal := Ideal.ofBits .f32 0x00000000#32
/-- The float word of `1.0`, read exactly. -/
abbrev oneE : EReal := Ideal.ofBits .f32 0x3F800000#32

theorem zeroE_eq : zeroE = 0 := by
  unfold zeroE
  simp [Ideal.ofBits, Ideal.ieee]
theorem oneE_eq : oneE = 1 := by
  unfold oneE
  rw [← EReal.coe_one]
  simp [Ideal.ofBits, Ideal.ieee, -EReal.coe_mul]
  norm_num

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  rcases le_total x y with hxy | hyx
  · rw [max_eq_right hxy]; exact hy
  · rw [max_eq_left hyx]; exact hx
theorem IsReal.sum {ι : Type*} (s : Finset ι) (f : ι → EReal) (hf : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add (hf a (Finset.mem_insert_self a s))
      (ih fun i hi => hf i (Finset.mem_insert_of_mem hi))
/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A quotient of a real by a real that is at least one is a real. -/
theorem IsReal.div {x y : EReal} (hx : IsReal x) (hy : ∃ r : ℝ, 1 ≤ r ∧ y = (r : EReal)) : IsReal (Ideal.div x y) := by
  obtain ⟨a, rfl⟩ := hx
  obtain ⟨r, hr1, rfl⟩ := hy
  have hr0 : r ≠ 0 := ne_of_gt (lt_of_lt_of_le one_pos hr1)
  rw [Ideal.div_coe hr0]
  exact IsReal.mul (IsReal.coe a) (IsReal.coe (1 / r))

section
variable {N E w : Nat}

/-- Node `i`'s in-degree, at least one: the number of edges whose destination lands on `i`, as the sum of ones the
    program computes from a zero, then the maximum with one. -/
def deg (dst : IVec ⟨2, ![E, 1]⟩ w) (i : Fin N) : EReal :=
  max (zeroE + ∑ _e ∈ Finset.univ.filter (fun e : Fin E => dstRow? N dst e = some i), oneE) oneE

/-- The degree is a real number, at least one. -/
theorem deg_real (dst : IVec ⟨2, ![E, 1]⟩ w) (i : Fin N) : ∃ r : ℝ, 1 ≤ r ∧ deg dst i = (r : EReal) := by
  unfold deg
  generalize Finset.univ.filter (fun e : Fin E => dstRow? N dst e = some i) = S
  rw [zeroE_eq, oneE_eq, zero_add]
  obtain ⟨s, hs⟩ := IsReal.sum S (fun _ => (1 : EReal)) (fun _ _ => IsReal.one)
  rw [hs, ← EReal.coe_one]
  rcases le_total s 1 with h | h
  · exact ⟨1, le_refl 1, max_eq_right (EReal.coe_le_coe_iff.mpr h)⟩
  · exact ⟨s, h, max_eq_left (EReal.coe_le_coe_iff.mpr h)⟩

/-- The mean over node `i`'s in-edges of the source rows of `x`, column `c`: the sum from a zero, divided by the degree. -/
def meanAgg {C : Nat} (hN : 0 < N) (src dst : IVec ⟨2, ![E, 1]⟩ w) (x : Fin N → Fin C → EReal) (i : Fin N) (c : Fin C) : EReal :=
  Ideal.div (zeroE + ∑ e ∈ Finset.univ.filter (fun e : Fin E => dstRow? N dst e = some i), x (srcRow hN src e) c) (deg dst i)

/-- The mean aggregate of finite features is finite. -/
theorem meanAgg_real {C : Nat} (hN : 0 < N) (src dst : IVec ⟨2, ![E, 1]⟩ w) (x : Fin N → Fin C → EReal)
    (hx : ∀ r c, IsReal (x r c)) (i : Fin N) (c : Fin C) : IsReal (meanAgg hN src dst x i c) := by
  unfold meanAgg
  refine IsReal.div (IsReal.add ?_ (IsReal.sum _ _ fun e _ => hx _ _)) (deg_real dst i)
  rw [zeroE_eq]; exact IsReal.zero

/-- MEAN AGGREGATION COMMUTES WITH A MATRIX PRODUCT ON THE RIGHT, for finite features and weights: the aggregate's
    row times a matrix column is the aggregate of the rows' products with that column. -/
theorem meanAgg_matmul {K C : Nat} (hN : 0 < N) (src dst : IVec ⟨2, ![E, 1]⟩ w) (h : Fin N → Fin K → EReal)
    (wl : Fin K → Fin C → EReal) (hh : ∀ r k, IsReal (h r k)) (hw : ∀ k c, IsReal (wl k c)) (i : Fin N) (c : Fin C) :
    ∑ k, meanAgg hN src dst h i k * wl k c = meanAgg hN src dst (fun r c' => ∑ k, h r k * wl k c') i c := by
  choose hr hhr using hh
  choose wr hwr using hw
  obtain ⟨d, hd1, hd⟩ := deg_real dst i
  have hd0 : d ≠ 0 := ne_of_gt (lt_of_lt_of_le one_pos hd1)
  unfold meanAgg
  rw [hd]
  generalize Finset.univ.filter (fun e : Fin E => dstRow? N dst e = some i) = S
  generalize srcRow hN src = g
  simp only [zeroE_eq, zero_add, Ideal.div_coe hd0, hhr, hwr]
  simp only [← EReal.coe_mul, ← coe_sum]
  rw [EReal.coe_eq_coe_iff]
  rw [Finset.sum_comm, Finset.sum_mul]
  refine Finset.sum_congr rfl fun k _ => ?_
  rw [Finset.sum_mul, Finset.sum_mul, Finset.sum_mul]
  refine Finset.sum_congr rfl fun e _ => ?_
  ring
end

end MeanAgg

end
-- ==== Proof.KernelRegion0.lean ====
/-
  What the kernel's FIRST grid region leaves in its two output arrays, read at an index, at the exact values.

  Both regions tile the node axis in 50 blocks of 4000 rows; the weights and biases are whole-array windows. At a
  grid point the first region's body computes, for its 4000 rows, the hidden features
  `max((agg · W1l + x · W1r) + b1, 0)` and their projection `hidden · W2l`; the second region's body computes
  `(hidden · W2r + agg2) + b2`. A row of a block depends only on the same row of the input blocks, and the blocks
  cover the arrays, so each output array after the region's last point is one function of the region's input
  arrays, index by index.
-/
import proofs.«145353_j652835029486_1_alg».proof.Proof.Gen.KernelIdeal.Frame
import proofs.«145353_j652835029486_1_alg».proof.Proof.LibPlainDot
import proofs.«145353_j652835029486_1_alg».proof.Proof.LibMeanAgg
import Idealize.ShloMosaic.Lib.Pipeline.Value
import Idealize.ShloMosaic.Lib.ValueLayout

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! The region's arrays, each named at its literal type (an element of a float buffer at the exact instance is an
    extended real). -/

/-- Region 0's inputs as the region finds them: the aggregated features, the node features, the first layer's two
    weight matrices, its bias as a row, and the second layer's left weights. -/
abbrev inAgg (c : Dev nD) : S200000x165.Idx → EReal := V c main_v23
abbrev inX (c : Dev nD) : S200000x165.Idx → EReal := V c main_arg0
abbrev inW1l (c : Dev nD) : S165x256.Idx → EReal := V c main_arg2
abbrev inW1r (c : Dev nD) : S165x256.Idx → EReal := V c main_arg3
abbrev inB1 (c : Dev nD) : S1x256.Idx → EReal := V c main_v24
abbrev inW2l (c : Dev nD) : S256x2.Idx → EReal := V c main_arg5
/-- Region 0's two output arrays after its last grid point: the hidden features and their projection. -/
abbrev outHid (c : Dev nD) : S200000x256.Idx → EReal := (dat0 (F := Ideal) V c).arrAt 6 cfg0.N
abbrev outProj (c : Dev nD) : S200000x2.Idx → EReal := (dat0 (F := Ideal) V c).arrAt 7 cfg0.N

/-! ## The body's two payloads at an index

    Stated over arbitrary blocks of the literal types; the blocks of a grid point are put in afterwards. -/

/-- The hidden block at `(p, q)`: the two products into the zero accumulator are sums over the `165` features, the
    bias row is broadcast down the rows, and the rectifier is the maximum with zero; the casts to the narrower
    float type are the identity at the exact values. -/
theorem hidden_payload_apply (x0 x1 : S4000x165.Idx → EReal) (x2 x3 : S165x256.Idx → EReal) (x4 : S1x256.Idx → EReal)
    (p : Fin 4000) (q : Fin 256) :
    k0_pay1 (F := Ideal) x0 x1 x2 x3 x4 (ix2 p q)
      = max ((∑ k : Fin 165, x0 (ix2 p k) * x2 (ix2 k q) + ∑ k : Fin 165, x1 (ix2 p k) * x3 (ix2 k q))
            + x4 (ix2 (0 : Fin 1) q)) MeanAgg.zeroE := by
  unfold k0_pay1
  rw [shapeCast_self, shapeCast_self]
  refine congrArg₂ max (congrArg₂ (· + ·) (congrArg₂ (· + ·) ?_ ?_) ?_) rfl
  · exact PlainDot.matmul_zero_apply 4000 165 256 none x0 (truncf .bf16 x2 bitsLt_bf16_f32) (ix2 p q)
  · exact PlainDot.matmul_zero_apply 4000 165 256 none (truncf .bf16 x1 bitsLt_bf16_f32)
      (truncf .bf16 x3 bitsLt_bf16_f32) (ix2 p q)
  · exact broadcastTo_1b_ab_apply x4 _ p q

/-- The projected block at `(p, q)`: the hidden block's row `p` times column `q` of the weights' block. -/
theorem proj_payload_apply (x0 x1 : S4000x165.Idx → EReal) (x2 x3 : S165x256.Idx → EReal) (x4 : S1x256.Idx → EReal)
    (x5 : S256x2.Idx → EReal) (p : Fin 4000) (q : Fin 2) :
    k0_pay3 (F := Ideal) x0 x1 x2 x3 x4 x5 (ix2 p q)
      = ∑ k : Fin 256, k0_pay1 (F := Ideal) x0 x1 x2 x3 x4 (ix2 p k) * x5 (ix2 k q) := by
  unfold k0_pay3
  exact PlainDot.matmul_zero_apply 4000 256 2 none
    (truncf .bf16 (k0_pay1 (F := Ideal) x0 x1 x2 x3 x4) bitsLt_bf16_f32) (truncf .bf16 x5 bitsLt_bf16_f32) (ix2 p q)

/-! ## Where each window's block sits in its array -/

/-- The zero offsets of a whole-buffer access, as a constant function. -/
theorem zero_offsets : (![0, 0] : Fin 2 → Nat) = fun _ => 0 := funext fun a => by fin_cases a <;> rfl

/-- The index maps over the 50 grid points: the four row-blocked windows (the two feature arrays, the two outputs)
    sit at block `t` on the node axis and block `0` on the other; the weights and the bias row are whole-array
    windows, at block `0` on both axes. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The node (array row) that row `p` of block `t` is: `4000 t + p`. -/
def blockRow (t : Fin cfg0.N) (p : Fin 4000) : Fin 200000 :=
  ⟨t.val * 4000 + p.val, by have : t.val < 50 := t.isLt; have := p.isLt; omega⟩

/-- Element `(p, k)` of the aggregated features' block `t` is the array's `(4000 t + p, k)`. -/
theorem aggBlock_emb (t : Fin cfg0.N) (p : Fin 4000) (k : Fin 165) :
    ((cfg0.win 0).blk t).view.emb (ix2 p k) = ix2 (blockRow t p) k := by
  obtain ⟨e00, e01, e10, e11, e20, e21, e30, e31, e40, e41, e50, e51, e60, e61, e70, e71⟩ := block_indices t
  funext a; apply Fin.ext
  match a with
  | ⟨0, _⟩ => show win0_0.index t (0 : Fin 2) * 4000 + 1 * p.val = t.val * 4000 + p.val; omega
  | ⟨1, _⟩ => show win0_0.index t (1 : Fin 2) * 165 + 1 * k.val = k.val; omega

/-- Element `(p, k)` of the node features' block `t` is the array's `(4000 t + p, k)`. -/
theorem xBlock_emb (t : Fin cfg0.N) (p : Fin 4000) (k : Fin 165) :
    ((cfg0.win 1).blk t).view.emb (ix2 p k) = ix2 (blockRow t p) k := by
  obtain ⟨e00, e01, e10, e11, e20, e21, e30, e31, e40, e41, e50, e51, e60, e61, e70, e71⟩ := block_indices t
  funext a; apply Fin.ext
  match a with
  | ⟨0, _⟩ => show win0_1.index t (0 : Fin 2) * 4000 + 1 * p.val = t.val * 4000 + p.val; omega
  | ⟨1, _⟩ => show win0_1.index t (1 : Fin 2) * 165 + 1 * k.val = k.val; omega

/-- The first layer's left weights' block is the whole array. -/
theorem w1lBlock_emb (t : Fin cfg0.N) (k : Fin 165) (q : Fin 256) :
    ((cfg0.win 2).blk t).view.emb (ix2 k q) = ix2 k q := by
  obtain ⟨e00, e01, e10, e11, e20, e21, e30, e31, e40, e41, e50, e51, e60, e61, e70, e71⟩ := block_indices t
  funext a; apply Fin.ext
  match a with
  | ⟨0, _⟩ => show win0_2.index t (0 : Fin 2) * 165 + 1 * k.val = k.val; omega
  | ⟨1, _⟩ => show win0_2.index t (1 : Fin 2) * 256 + 1 * q.val = q.val; omega

/-- The first layer's right weights' block is the whole array. -/
theorem w1rBlock_emb (t : Fin cfg0.N) (k : Fin 165) (q : Fin 256) :
    ((cfg0.win 3).blk t).view.emb (ix2 k q) = ix2 k q := by
  obtain ⟨e00, e01, e10, e11, e20, e21, e30, e31, e40, e41, e50, e51, e60, e61, e70, e71⟩ := block_indices t
  funext a; apply Fin.ext
  match a with
  | ⟨0, _⟩ => show win0_3.index t (0 : Fin 2) * 165 + 1 * k.val = k.val; omega
  | ⟨1, _⟩ => show win0_3.index t (1 : Fin 2) * 256 + 1 * q.val = q.val; omega

/-- The bias row's block is the whole array. -/
theorem b1Block_emb (t : Fin cfg0.N) (z : Fin 1) (q : Fin 256) :
    ((cfg0.win 4).blk t).view.emb (ix2 z q) = ix2 z q := by
  obtain ⟨e00, e01, e10, e11, e20, e21, e30, e31, e40, e41, e50, e51, e60, e61, e70, e71⟩ := block_indices t
  funext a; apply Fin.ext
  match a with
  | ⟨0, _⟩ => show win0_4.index t (0 : Fin 2) * 1 + 1 * z.val = z.val; omega
  | ⟨1, _⟩ => show win0_4.index t (1 : Fin 2) * 256 + 1 * q.val = q.val; omega

/-- The second layer's left weights' block is the whole array. -/
theorem w2lBlock_emb (t : Fin cfg0.N) (k : Fin 256) (q : Fin 2) :
    ((cfg0.win 5).blk t).view.emb (ix2 k q) = ix2 k q := by
  obtain ⟨e00, e01, e10, e11, e20, e21, e30, e31, e40, e41, e50, e51, e60, e61, e70, e71⟩ := block_indices t
  funext a; apply Fin.ext
  match a with
  | ⟨0, _⟩ => show win0_5.index t (0 : Fin 2) * 256 + 1 * k.val = k.val; omega
  | ⟨1, _⟩ => show win0_5.index t (1 : Fin 2) * 2 + 1 * q.val = q.val; omega

/-- Element `(p, q)` of the hidden features' block `t` is the array's `(4000 t + p, q)`. -/
theorem hidBlock_emb (t : Fin cfg0.N) (p : Fin 4000) (q : Fin 256) :
    ((cfg0.win 6).blk t).view.emb (ix2 p q) = ix2 (blockRow t p) q := by
  obtain ⟨e00, e01, e10, e11, e20, e21, e30, e31, e40, e41, e50, e51, e60, e61, e70, e71⟩ := block_indices t
  funext a; apply Fin.ext
  match a with
  | ⟨0, _⟩ => show win0_6.index t (0 : Fin 2) * 4000 + 1 * p.val = t.val * 4000 + p.val; omega
  | ⟨1, _⟩ => show win0_6.index t (1 : Fin 2) * 256 + 1 * q.val = q.val; omega

/-- Element `(p, q)` of the projection's block `t` is the array's `(4000 t + p, q)`. -/
theorem projBlock_emb (t : Fin cfg0.N) (p : Fin 4000) (q : Fin 2) :
    ((cfg0.win 7).blk t).view.emb (ix2 p q) = ix2 (blockRow t p) q := by
  obtain ⟨e00, e01, e10, e11, e20, e21, e30, e31, e40, e41, e50, e51, e60, e61, e70, e71⟩ := block_indices t
  funext a; apply Fin.ext
  match a with
  | ⟨0, _⟩ => show win0_7.index t (0 : Fin 2) * 4000 + 1 * p.val = t.val * 4000 + p.val; omega
  | ⟨1, _⟩ => show win0_7.index t (1 : Fin 2) * 2 + 1 * q.val = q.val; omega

/-! The input blocks at a grid point, read at an index, are the arrays at the element's place. -/

theorem aggBlock_apply (c : Dev nD) (t : Fin cfg0.N) (p : Fin 4000) (k : Fin 165) :
    iblk0 V c 0 t (ix2 p k) = inAgg V c (ix2 (blockRow t p) k) :=
  congrArg (inAgg V c) (aggBlock_emb t p k)
theorem xBlock_apply (c : Dev nD) (t : Fin cfg0.N) (p : Fin 4000) (k : Fin 165) :
    iblk0 V c 1 t (ix2 p k) = inX V c (ix2 (blockRow t p) k) :=
  congrArg (inX V c) (xBlock_emb t p k)
theorem w1lBlock_apply (c : Dev nD) (t : Fin cfg0.N) (k : Fin 165) (q : Fin 256) :
    iblk0 V c 2 t (ix2 k q) = inW1l V c (ix2 k q) :=
  congrArg (inW1l V c) (w1lBlock_emb t k q)
theorem w1rBlock_apply (c : Dev nD) (t : Fin cfg0.N) (k : Fin 165) (q : Fin 256) :
    iblk0 V c 3 t (ix2 k q) = inW1r V c (ix2 k q) :=
  congrArg (inW1r V c) (w1rBlock_emb t k q)
theorem b1Block_apply (c : Dev nD) (t : Fin cfg0.N) (z : Fin 1) (q : Fin 256) :
    iblk0 V c 4 t (ix2 z q) = inB1 V c (ix2 z q) :=
  congrArg (inB1 V c) (b1Block_emb t z q)
theorem w2lBlock_apply (c : Dev nD) (t : Fin cfg0.N) (k : Fin 256) (q : Fin 2) :
    iblk0 V c 5 t (ix2 k q) = inW2l V c (ix2 k q) :=
  congrArg (inW2l V c) (w2lBlock_emb t k q)

/-! ## The two output arrays as functions of the region's inputs -/

/-- The hidden feature `j` of node `r`: `max((agg · W1l + x · W1r)(r, j) + b1 j, 0)`. -/
def hidAt (c : Dev nD) (r : Fin 200000) (j : Fin 256) : EReal :=
  max ((∑ k : Fin 165, inAgg V c (ix2 r k) * inW1l V c (ix2 k j)
        + ∑ k : Fin 165, inX V c (ix2 r k) * inW1r V c (ix2 k j))
      + inB1 V c (ix2 (0 : Fin 1) j)) MeanAgg.zeroE

/-- The hidden features as one array. -/
def hidFn (c : Dev nD) : S200000x256.Idx → EReal := fun i => hidAt V c (i 0) (i 1)

/-- Their projection as one array: row `i 0` of the hidden features times column `i 1` of `W2l`. -/
def projFn (c : Dev nD) : S200000x2.Idx → EReal := fun i =>
  ∑ k : Fin 256, hidAt V c (i 0) k * inW2l V c (ix2 k (i 1))

/-- The hidden block of grid point `t` at `(p, q)` is the hidden feature `q` of node `4000 t + p`. -/
theorem hidden_block_apply (c : Dev nD) (t : Fin cfg0.N) (p : Fin 4000) (q : Fin 256) :
    k0_pay1 (F := Ideal) (iblk0 V c 0 t) (iblk0 V c 1 t) (iblk0 V c 2 t) (iblk0 V c 3 t) (iblk0 V c 4 t) (ix2 p q)
      = hidAt V c (blockRow t p) q := by
  refine (hidden_payload_apply _ _ _ _ _ p q).trans ?_
  unfold hidAt
  simp only [aggBlock_apply, xBlock_apply, w1lBlock_apply, w1rBlock_apply, b1Block_apply]

/-- What grid point `t` writes back to the hidden features' array is block `t` of `hidFn`. -/
theorem hidden_flushed (c : Dev nD) (t : Fin cfg0.N) :
    (dat0 (F := Ideal) V c).flushed 6 t = ((cfg0.win 6).blk t).view.read (Elt Ideal) (hidFn V c) := by
  show (cfg0.win 6).cut (grid0.coords t) ((dat0 (F := Ideal) V c).after 6 t) = _
  rw [after0_6]
  unfold out0_6
  rw [View.canon_unit_zero zero_offsets]
  simp only [View.ld_unit_zero (S := S4000x165) zero_offsets, View.ld_unit_zero (S := S165x256) zero_offsets,
    View.ld_unit_zero (S := S1x256) zero_offsets]
  funext y
  obtain ⟨p, q, rfl⟩ : ∃ (p : Fin 4000) (q : Fin 256), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = hidFn V c (((cfg0.win 6).blk t).view.emb (ix2 p q))
  rw [hidBlock_emb, hidden_block_apply]
  rfl

/-- What grid point `t` writes back to the projection's array is block `t` of `projFn`. -/
theorem proj_flushed (c : Dev nD) (t : Fin cfg0.N) :
    (dat0 (F := Ideal) V c).flushed 7 t = ((cfg0.win 7).blk t).view.read (Elt Ideal) (projFn V c) := by
  show (cfg0.win 7).cut (grid0.coords t) ((dat0 (F := Ideal) V c).after 7 t) = _
  rw [after0_7]
  unfold out0_7
  rw [View.canon_unit_zero zero_offsets]
  simp only [View.ld_unit_zero (S := S4000x165) zero_offsets, View.ld_unit_zero (S := S165x256) zero_offsets,
    View.ld_unit_zero (S := S1x256) zero_offsets, View.ld_unit_zero (S := S256x2) zero_offsets]
  funext y
  obtain ⟨p, q, rfl⟩ : ∃ (p : Fin 4000) (q : Fin 2), y = ix2 p q := ⟨y 0, y 1, eq_ix2 y⟩
  show k0_pay3 (F := Ideal) (iblk0 V c 0 t) (iblk0 V c 1 t) (iblk0 V c 2 t) (iblk0 V c 3 t) (iblk0 V c 4 t)
      (iblk0 V c 5 t) (ix2 p q)
    = projFn V c (((cfg0.win 7).blk t).view.emb (ix2 p q))
  rw [projBlock_emb]
  refine (proj_payload_apply _ _ _ _ _ _ p q).trans ?_
  show _ = ∑ k : Fin 256, hidAt V c (blockRow t p) k * inW2l V c (ix2 k q)
  simp only [hidden_block_apply, w2lBlock_apply]

/-! ## The blocks cover the arrays -/

/-- An index of the hidden features' array is in point `t`'s block iff each coordinate is in the block's range. -/
theorem mem_hidBlock (t : Fin cfg0.N) (i : S200000x256.Idx) :
    i ∈ ((cfg0.win 6).blk t).view.set ↔ ∀ a : Fin 2, win0_6.index t a * S4000x256.size a ≤ (i a).val
      ∧ (i a).val < win0_6.index t a * S4000x256.size a + S4000x256.size a := by
  show i ∈ ((View.whole main_v25_0).slice (win0_6.rect t)).set ↔ _
  rw [View.set_slice_whole, Rect.mem_set_unit]
  exact Iff.rfl

/-- An index of the projection's array is in point `t`'s block iff each coordinate is in the block's range. -/
theorem mem_projBlock (t : Fin cfg0.N) (i : S200000x2.Idx) :
    i ∈ ((cfg0.win 7).blk t).view.set ↔ ∀ a : Fin 2, win0_7.index t a * S4000x2.size a ≤ (i a).val
      ∧ (i a).val < win0_7.index t a * S4000x2.size a + S4000x2.size a := by
  show i ∈ ((View.whole main_v25_1).slice (win0_7.rect t)).set ↔ _
  rw [View.set_slice_whole, Rect.mem_set_unit]
  exact Iff.rfl

/-- Node `r` is in the block of point `r / 4000`, whatever the column. -/
theorem hid_cover (i : S200000x256.Idx) :
    ∃ t : Fin cfg0.N, (cfg0.win 6).flush t = true ∧ i ∈ ((cfg0.win 6).blk t).view.set := by
  have hi0 : (i 0).val < 200000 := (i 0).isLt
  have hi1 : (i 1).val < 256 := (i 1).isLt
  have ht : (i 0).val / 4000 < 50 := by omega
  obtain ⟨e00, e01, e10, e11, e20, e21, e30, e31, e40, e41, e50, e51, e60, e61, e70, e71⟩ :=
    block_indices (⟨(i 0).val / 4000, ht⟩ : Fin cfg0.N)
  have e60' : win0_6.index (⟨(i 0).val / 4000, ht⟩ : Fin cfg0.N) (0 : Fin 2) = (i 0).val / 4000 := e60
  refine ⟨⟨(i 0).val / 4000, ht⟩, flush0_6 _, ?_⟩
  rw [mem_hidBlock]
  intro a
  match a with
  | ⟨0, _⟩ =>
    show win0_6.index ⟨(i 0).val / 4000, ht⟩ (0 : Fin 2) * 4000 ≤ (i 0).val
      ∧ (i 0).val < win0_6.index ⟨(i 0).val / 4000, ht⟩ (0 : Fin 2) * 4000 + 4000
    omega
  | ⟨1, _⟩ =>
    show win0_6.index ⟨(i 0).val / 4000, ht⟩ (1 : Fin 2) * 256 ≤ (i 1).val
      ∧ (i 1).val < win0_6.index ⟨(i 0).val / 4000, ht⟩ (1 : Fin 2) * 256 + 256
    omega

/-- Likewise in the projection's array. -/
theorem proj_cover (i : S200000x2.Idx) :
    ∃ t : Fin cfg0.N, (cfg0.win 7).flush t = true ∧ i ∈ ((cfg0.win 7).blk t).view.set := by
  have hi0 : (i 0).val < 200000 := (i 0).isLt
  have hi1 : (i 1).val < 2 := (i 1).isLt
  have ht : (i 0).val / 4000 < 50 := by omega
  obtain ⟨e00, e01, e10, e11, e20, e21, e30, e31, e40, e41, e50, e51, e60, e61, e70, e71⟩ :=
    block_indices (⟨(i 0).val / 4000, ht⟩ : Fin cfg0.N)
  have e70' : win0_7.index (⟨(i 0).val / 4000, ht⟩ : Fin cfg0.N) (0 : Fin 2) = (i 0).val / 4000 := e70
  refine ⟨⟨(i 0).val / 4000, ht⟩, flush0_7 _, ?_⟩
  rw [mem_projBlock]
  intro a
  match a with
  | ⟨0, _⟩ =>
    show win0_7.index ⟨(i 0).val / 4000, ht⟩ (0 : Fin 2) * 4000 ≤ (i 0).val
      ∧ (i 0).val < win0_7.index ⟨(i 0).val / 4000, ht⟩ (0 : Fin 2) * 4000 + 4000
    omega
  | ⟨1, _⟩ =>
    show win0_7.index ⟨(i 0).val / 4000, ht⟩ (1 : Fin 2) * 2 ≤ (i 1).val
      ∧ (i 1).val < win0_7.index ⟨(i 0).val / 4000, ht⟩ (1 : Fin 2) * 2 + 2
    omega

/-! ## The arrays after the last grid point -/

/-- The hidden features' array after the last point is `hidFn` of the region's inputs. -/
theorem outHid_eq (c : Dev nD) : outHid V c = hidFn V c :=
  (dat0 (F := Ideal) V c).arrAt_eq_of_cover 6 (hidFn V c) (fun t _ => hidden_flushed V c t) hid_cover

/-- The projection's array after the last point is `projFn` of the region's inputs. -/
theorem outProj_eq (c : Dev nD) : outProj V c = projFn V c :=
  (dat0 (F := Ideal) V c).arrAt_eq_of_cover 7 (projFn V c) (fun t _ => proj_flushed V c t) proj_cover

/-- The first region's hidden-feature array after its last grid point, at `(i, j)`. -/
theorem region0_hidden (c : Dev nD) (i : Fin 200000) (j : Fin 256) :
    outHid V c (ix2 i j)
      = max ((∑ k : Fin 165, inAgg V c (ix2 i k) * inW1l V c (ix2 k j)
              + ∑ k : Fin 165, inX V c (ix2 i k) * inW1r V c (ix2 k j))
            + inB1 V c (ix2 (0 : Fin 1) j)) MeanAgg.zeroE :=
  congrFun (outHid_eq V c) (ix2 i j)

/-- The first region's projected-feature array after its last grid point, at `(i, c')`: the hidden row times a
    column of the second layer's left weights. -/
theorem region0_proj (c : Dev nD) (i : Fin 200000) (c' : Fin 2) :
    outProj V c (ix2 i c') = ∑ k : Fin 256, outHid V c (ix2 i k) * inW2l V c (ix2 k c') := by
  rw [outHid_eq]
  exact congrFun (outProj_eq V c) (ix2 i c')

end Cert.KernelIdeal.Out

end
-- ==== Proof.KernelRegion1.lean ====
/-
  What the kernel's SECOND grid region leaves in its output array, read at an index, at the exact values.

  Both regions tile the node axis in 50 blocks of 4000 rows; the weights and biases are whole-array windows. At a
  grid point the first region's body computes, for its 4000 rows, the hidden features
  `max((agg · W1l + x · W1r) + b1, 0)` and their projection `hidden · W2l`; the second region's body computes
  `(hidden · W2r + agg2) + b2`. A row of a block depends only on the same row of the input blocks, and the blocks
  cover the arrays, so each output array after the region's last point is one function of the region's input
  arrays, index by index.
-/
import proofs.«145353_j652835029486_1_alg».proof.Proof.Gen.KernelIdeal.Frame
import proofs.«145353_j652835029486_1_alg».proof.Proof.LibPlainDot
import proofs.«145353_j652835029486_1_alg».proof.Proof.LibMeanAgg
import Idealize.ShloMosaic.Lib.Pipeline.Value
import Idealize.ShloMosaic.Lib.ValueLayout

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! The region's arrays, each named at its literal type (an element of a float buffer at the exact instance is an
    extended real). -/

/-- Region 1's inputs as the region finds them: the aggregated projections, the hidden features, the second layer's
    right weights, its bias as a row. -/
abbrev inAgg2 (c : Dev nD) : S200000x2.Idx → EReal := V c main_v37
abbrev inHid (c : Dev nD) : S200000x256.Idx → EReal := V c main_v25_0
abbrev inW2r (c : Dev nD) : S256x2.Idx → EReal := V c main_arg6
abbrev inB2 (c : Dev nD) : S1x2.Idx → EReal := V c main_v38
/-- Region 1's output array after its last grid point: the logits. -/
abbrev outLogits (c : Dev nD) : S200000x2.Idx → EReal := (dat1 (F := Ideal) V c).arrAt 4 cfg1.N

/-! ## The body's result at an index -/

/-- The zero offsets of a whole-block access, as a constant function. -/
theorem zeroOffsets : (![0, 0] : Fin 2 → Nat) = fun _ => 0 :=
  funext fun a => match a with | ⟨0, _⟩ => rfl | ⟨1, _⟩ => rfl

/-- The block index of each window at each of the 50 grid points: the row-blocked windows (aggregated projections,
    hidden features, logits) are at block `t` on the node axis and block 0 on the feature axis; the weights and the
    bias row are at block 0 on both axes. -/
theorem blockIndices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's stored value at `(p, q)` of its block, over any four input blocks: the hidden row `p` times column
    `q` of the weights (the weights' narrowing is the identity on extended reals; the accumulator starts at zero), plus
    the aggregated projection at `(p, q)`, plus the bias row at `q`. -/
theorem payload_apply (x0 : Vec Ideal S4000x256 .bf16) (x2 : Vec Ideal S256x2 .f32) (x5 : Vec Ideal S4000x2 .f32)
    (x8 : Vec Ideal S1x2 .f32) (p : Fin 4000) (q : Fin 2) :
    k1_pay1 x0 x2 x5 x8 (ix2 p q)
      = ((∑ k : Fin 256, (x0 (ix2 p k) : EReal) * (x2 (ix2 k q) : EReal)) + (x5 (ix2 p q) : EReal))
        + (x8 (ix2 (0 : Fin 1) q) : EReal) := by
  unfold k1_pay1
  simp only [shapeCast_self]
  rw [addf_apply, addf_apply]
  have hm : matmul (φ₁ := FTy.bf16) dot_S4000x256_S256x2_S4000x2_1_0_0_1_n_n none x0 (truncf FTy.bf16 x2 bitsLt_bf16_f32)
      (constant (F := Ideal) S4000x2 FTy.f32 0x00000000#32) (ix2 p q)
        = ∑ k : Fin 256, (x0 (ix2 p k) : EReal) * (x2 (ix2 k q) : EReal) :=
    PlainDot.matmul_zero_apply (φ₁ := FTy.bf16) 4000 256 2 none x0 (truncf FTy.bf16 x2 bitsLt_bf16_f32) (ix2 p q)
  have hb : broadcastTo S4000x2 x8 broadcasts_S1x2_S4000x2 (ix2 p q) = x8 (ix2 (0 : Fin 1) q) :=
    broadcastTo_1b_ab_apply x8 broadcasts_S1x2_S4000x2 p q
  rw [hm, hb]

/-! ## The input blocks, read off their arrays -/

/-- What the logits array ends holding, index by index: the hidden row times a column of the second layer's right
    weights, plus the aggregated projection, plus the bias. -/
abbrev logitsArr (c : Dev nD) : S200000x2.Idx → EReal := fun j =>
  (∑ k : Fin 256, inHid V c (ix2 (j 0 : Fin 200000) k) * inW2r V c (ix2 k (j 1 : Fin 2))
      + inAgg2 V c (ix2 (j 0 : Fin 200000) (j 1 : Fin 2)))
    + inB2 V c (ix2 (0 : Fin 1) (j 1 : Fin 2))

/-- Row `p` of the hidden-feature block at point `t` is row `4000 t + p` of the array. -/
theorem hid_block (c : Dev nD) (t : Fin cfg1.N) (p : Fin 4000) (k : Fin 256) (r : Fin 200000)
    (hr : r.val = t.val * 4000 + p.val) :
    (iblk1 V c 1 t : Vec Ideal S4000x256 .bf16) (ix2 p k) = inHid V c (ix2 r k) := by
  obtain ⟨e00, e01, e10, e11, e20, e21, e30, e31, e40, e41⟩ := blockIndices t
  show V c main_v25_0 (((cfg1.win 1).blk t).view.emb (ix2 p k)) = V c main_v25_0 (ix2 r k)
  congr 1
  funext a; apply Fin.ext
  match a with
  | ⟨0, _⟩ => show win1_1.index t (0 : Fin 2) * 4000 + 1 * p.val = r.val; omega
  | ⟨1, _⟩ => show win1_1.index t (1 : Fin 2) * 256 + 1 * k.val = k.val; omega

/-- Row `p` of the aggregated-projection block at point `t` is row `4000 t + p` of the array. -/
theorem agg_block (c : Dev nD) (t : Fin cfg1.N) (p : Fin 4000) (q : Fin 2) (r : Fin 200000)
    (hr : r.val = t.val * 4000 + p.val) :
    (iblk1 V c 0 t : Vec Ideal S4000x2 .f32) (ix2 p q) = inAgg2 V c (ix2 r q) := by
  obtain ⟨e00, e01, e10, e11, e20, e21, e30, e31, e40, e41⟩ := blockIndices t
  show V c main_v37 (((cfg1.win 0).blk t).view.emb (ix2 p q)) = V c main_v37 (ix2 r q)
  congr 1
  funext a; apply Fin.ext
  match a with
  | ⟨0, _⟩ => show win1_0.index t (0 : Fin 2) * 4000 + 1 * p.val = r.val; omega
  | ⟨1, _⟩ => show win1_0.index t (1 : Fin 2) * 2 + 1 * q.val = q.val; omega

/-- The weights' block at every point is the whole weight matrix. -/
theorem w_block (c : Dev nD) (t : Fin cfg1.N) (k : Fin 256) (q : Fin 2) :
    (iblk1 V c 2 t : Vec Ideal S256x2 .f32) (ix2 k q) = inW2r V c (ix2 k q) := by
  obtain ⟨e00, e01, e10, e11, e20, e21, e30, e31, e40, e41⟩ := blockIndices t
  show V c main_arg6 (((cfg1.win 2).blk t).view.emb (ix2 k q)) = V c main_arg6 (ix2 k q)
  congr 1
  funext a; apply Fin.ext
  match a with
  | ⟨0, _⟩ => show win1_2.index t (0 : Fin 2) * 256 + 1 * k.val = k.val; omega
  | ⟨1, _⟩ => show win1_2.index t (1 : Fin 2) * 2 + 1 * q.val = q.val; omega

/-- The bias block at every point is the whole bias row. -/
theorem b_block (c : Dev nD) (t : Fin cfg1.N) (z : Fin 1) (q : Fin 2) :
    (iblk1 V c 3 t : Vec Ideal S1x2 .f32) (ix2 z q) = inB2 V c (ix2 z q) := by
  obtain ⟨e00, e01, e10, e11, e20, e21, e30, e31, e40, e41⟩ := blockIndices t
  show V c main_v38 (((cfg1.win 3).blk t).view.emb (ix2 z q)) = V c main_v38 (ix2 z q)
  congr 1
  funext a; apply Fin.ext
  match a with
  | ⟨0, _⟩ => show win1_3.index t (0 : Fin 2) * 1 + 1 * z.val = z.val; omega
  | ⟨1, _⟩ => show win1_3.index t (1 : Fin 2) * 2 + 1 * q.val = q.val; omega

/-! ## From blocks to the array -/

/-- What point `t` writes back is block `t` of `logitsArr`: the body's one store covers its block, its value at
    `(p, q)` is `payload_apply`'s, and each input block's row `p` is the array's row `4000 t + p`. -/
theorem flushed_logits (c : Dev nD) (t : Fin cfg1.N) :
    (dat1 (F := Ideal) V c).flushed 4 t = ((cfg1.win 4).blk t).view.read (Elt Ideal) (logitsArr V c) := by
  show (cfg1.win 4).cut (grid1.coords t) ((dat1 (F := Ideal) V c).after 4 t) = _
  rw [after1_4]
  unfold out1_4
  rw [View.canon_unit_zero zeroOffsets]
  simp only [View.ld_unit_zero (S := S4000x256) zeroOffsets, View.ld_unit_zero (S := S256x2) zeroOffsets,
    View.ld_unit_zero (S := S4000x2) zeroOffsets, View.ld_unit_zero (S := S1x2) zeroOffsets]
  funext y
  obtain ⟨p, q, rfl⟩ : ∃ (p : Fin 4000) (q : Fin 2), y = ix2 p q := ⟨y 0, y 1, eq_ix2 y⟩
  have ht : t.val < 50 := t.isLt
  obtain ⟨e00, e01, e10, e11, e20, e21, e30, e31, e40, e41⟩ := blockIndices t
  have hemb : ((cfg1.win 4).blk t).view.emb (ix2 p q) = ix2 (⟨t.val * 4000 + p.val, by omega⟩ : Fin 200000) q := by
    funext a; apply Fin.ext
    match a with
    | ⟨0, _⟩ => show win1_4.index t (0 : Fin 2) * 4000 + 1 * p.val = t.val * 4000 + p.val; omega
    | ⟨1, _⟩ => show win1_4.index t (1 : Fin 2) * 2 + 1 * q.val = q.val; omega
  show k1_pay1 (iblk1 V c 1 t) (iblk1 V c 2 t) (iblk1 V c 0 t) (iblk1 V c 3 t) (ix2 p q)
    = logitsArr V c (((cfg1.win 4).blk t).view.emb (ix2 p q))
  rw [hemb]
  refine (payload_apply _ _ _ _ p q).trans ?_
  rw [agg_block V c t p q ⟨t.val * 4000 + p.val, by omega⟩ rfl, b_block V c t 0 q]
  show _ + _ + _ = _ + _ + _
  congr 2
  refine Finset.sum_congr rfl fun k _ => ?_
  rw [hid_block V c t p k ⟨t.val * 4000 + p.val, by omega⟩ rfl, w_block V c t k q]

/-- An index of the logits array is in point `t`'s block iff each coordinate is in the block's range on its axis. -/
theorem mem_block (t : Fin cfg1.N) (i : S200000x2.Idx) :
    i ∈ ((cfg1.win 4).blk t).view.set
      ↔ ∀ a : Fin 2, win1_4.index t a * S4000x2.size a ≤ (i a).val
          ∧ (i a).val < win1_4.index t a * S4000x2.size a + S4000x2.size a := by
  show i ∈ ((View.whole main_v39).slice (win1_4.rect t)).set ↔ _
  rw [View.set_slice_whole, Rect.mem_set_unit]
  exact Iff.rfl

/-- Every index of the logits array is in some point's block: row `r` is in block `r / 4000`, and both columns are in
    every block. -/
theorem covered (i : S200000x2.Idx) :
    ∃ t : Fin cfg1.N, (cfg1.win 4).flush t = true ∧ i ∈ ((cfg1.win 4).blk t).view.set := by
  have h0 : (i 0).val < 200000 := (i 0).isLt
  have h1 : (i 1).val < 2 := (i 1).isLt
  have hlt : (i 0).val / 4000 < 50 := by omega
  refine ⟨⟨(i 0).val / 4000, hlt⟩, flush1_4 _, ?_⟩
  rw [mem_block]
  obtain ⟨e00, e01, e10, e11, e20, e21, e30, e31, e40, e41⟩ := blockIndices ⟨(i 0).val / 4000, hlt⟩
  have e40' : win1_4.index ⟨(i 0).val / 4000, hlt⟩ (0 : Fin 2) = (i 0).val / 4000 := e40
  intro a
  match a with
  | ⟨0, _⟩ =>
    show win1_4.index ⟨(i 0).val / 4000, hlt⟩ (0 : Fin 2) * 4000 ≤ (i 0).val
      ∧ (i 0).val < win1_4.index ⟨(i 0).val / 4000, hlt⟩ (0 : Fin 2) * 4000 + 4000
    omega
  | ⟨1, _⟩ =>
    show win1_4.index ⟨(i 0).val / 4000, hlt⟩ (1 : Fin 2) * 2 ≤ (i 1).val
      ∧ (i 1).val < win1_4.index ⟨(i 0).val / 4000, hlt⟩ (1 : Fin 2) * 2 + 2
    omega

/-- The second region's output array after its last grid point, at `(i, c')`. -/
theorem region1_out (c : Dev nD) (i : Fin 200000) (c' : Fin 2) :
    outLogits V c (ix2 i c')
      = (∑ k : Fin 256, inHid V c (ix2 i k) * inW2r V c (ix2 k c') + inAgg2 V c (ix2 i c'))
        + inB2 V c (ix2 (0 : Fin 1) c') := by
  exact congrFun ((dat1 (F := Ideal) V c).arrAt_eq_of_cover 4 (logitsArr V c)
    (fun t _ => flushed_logits V c t) (covered)) (ix2 i c')

end Cert.KernelIdeal.Out

end
-- ==== Proof.Spec.lean ====
/-
  What both programs compute, index by index, on the extended reals: a two-layer GraphSAGE network with mean
  aggregation.

  One layer maps node features `x` to `mean_in_edges(x) · W_l + x · W_r + b`. The hidden layer is the first layer's
  output clamped below at zero. The reference applies the second layer to the hidden features as written: aggregate
  the 256-wide hidden rows, then multiply by `W_l`. The kernel multiplies every hidden row by `W_l` first and
  aggregates the 2-wide products. For finite inputs the two agree, by linearity of the mean aggregate
  (`MeanAgg.meanAgg_matmul`).
-/
import proofs.«145353_j652835029486_1_alg».proof.Proof.LibMeanAgg

noncomputable section

open scoped BigOperators

namespace Sage

open Idealize.ShloMosaic Idealize.ShloMosaic.ValueIdx RowOps MeanAgg

section
variable {N E w Cin Chid Cout : Nat}

/-- One layer before its nonlinearity: aggregated neighbours times `wl`, plus the node's own row times `wr`, plus the bias. -/
def layer {A B : Nat} (hN : 0 < N) (src dst : IVec ⟨2, ![E, 1]⟩ w) (x : Fin N → Fin A → EReal)
    (wl wr : Fin A → Fin B → EReal) (b : Fin B → EReal) (i : Fin N) (j : Fin B) : EReal :=
  (∑ k, meanAgg hN src dst x i k * wl k j + ∑ k, x i k * wr k j) + b j

/-- The hidden features: the first layer clamped below at zero. -/
def hid (hN : 0 < N) (src dst : IVec ⟨2, ![E, 1]⟩ w) (x : Fin N → Fin Cin → EReal)
    (w1l w1r : Fin Cin → Fin Chid → EReal) (b1 : Fin Chid → EReal) (i : Fin N) (j : Fin Chid) : EReal :=
  max (layer hN src dst x w1l w1r b1 i j) zeroE

/-- The hidden features of finite inputs are finite. -/
theorem hid_real (hN : 0 < N) (src dst : IVec ⟨2, ![E, 1]⟩ w) (x : Fin N → Fin Cin → EReal)
    (w1l w1r : Fin Cin → Fin Chid → EReal) (b1 : Fin Chid → EReal)
    (hx : ∀ r k, IsReal (x r k)) (hl : ∀ k j, IsReal (w1l k j)) (hr : ∀ k j, IsReal (w1r k j)) (hb : ∀ j, IsReal (b1 j))
    (i : Fin N) (j : Fin Chid) : IsReal (hid hN src dst x w1l w1r b1 i j) := by
  unfold hid layer
  refine IsReal.max (IsReal.add (IsReal.add ?_ ?_) (hb j)) ?_
  · exact IsReal.sum _ _ fun k _ => IsReal.mul (meanAgg_real hN src dst x hx i k) (hl k j)
  · exact IsReal.sum _ _ fun k _ => IsReal.mul (hx i k) (hr k j)
  · rw [zeroE_eq]; exact IsReal.zero

/-- The reference's logits: the second layer applied to the hidden features. -/
def refOut (hN : 0 < N) (src dst : IVec ⟨2, ![E, 1]⟩ w) (x : Fin N → Fin Cin → EReal)
    (w1l w1r : Fin Cin → Fin Chid → EReal) (b1 : Fin Chid → EReal) (w2l w2r : Fin Chid → Fin Cout → EReal)
    (b2 : Fin Cout → EReal) (i : Fin N) (c : Fin Cout) : EReal :=
  layer hN src dst (hid hN src dst x w1l w1r b1) w2l w2r b2 i c

/-- The projected hidden features the kernel aggregates: every hidden row times `w2l`. -/
def proj (hN : 0 < N) (src dst : IVec ⟨2, ![E, 1]⟩ w) (x : Fin N → Fin Cin → EReal)
    (w1l w1r : Fin Cin → Fin Chid → EReal) (b1 : Fin Chid → EReal) (w2l : Fin Chid → Fin Cout → EReal)
    (i : Fin N) (c : Fin Cout) : EReal :=
  ∑ k, hid hN src dst x w1l w1r b1 i k * w2l k c

/-- The kernel's logits: the node's own hidden row times `w2r`, plus the aggregate of the projected rows, plus the bias. -/
def kerOut (hN : 0 < N) (src dst : IVec ⟨2, ![E, 1]⟩ w) (x : Fin N → Fin Cin → EReal)
    (w1l w1r : Fin Cin → Fin Chid → EReal) (b1 : Fin Chid → EReal) (w2l w2r : Fin Chid → Fin Cout → EReal)
    (b2 : Fin Cout → EReal) (i : Fin N) (c : Fin Cout) : EReal :=
  (∑ k, hid hN src dst x w1l w1r b1 i k * w2r k c + meanAgg hN src dst (proj hN src dst x w1l w1r b1 w2l) i c) + b2 c

/-- For finite features and weights the kernel's logits are the reference's. -/
theorem kerOut_eq_refOut (hN : 0 < N) (src dst : IVec ⟨2, ![E, 1]⟩ w) (x : Fin N → Fin Cin → EReal)
    (w1l w1r : Fin Cin → Fin Chid → EReal) (b1 : Fin Chid → EReal) (w2l w2r : Fin Chid → Fin Cout → EReal)
    (b2 : Fin Cout → EReal)
    (hx : ∀ r k, IsReal (x r k)) (hl : ∀ k j, IsReal (w1l k j)) (hr : ∀ k j, IsReal (w1r k j)) (hb : ∀ j, IsReal (b1 j))
    (h2 : ∀ k c, IsReal (w2l k c)) (i : Fin N) (c : Fin Cout) :
    kerOut hN src dst x w1l w1r b1 w2l w2r b2 i c = refOut hN src dst x w1l w1r b1 w2l w2r b2 i c := by
  unfold kerOut refOut layer
  rw [meanAgg_matmul hN src dst (hid hN src dst x w1l w1r b1) w2l
    (fun r k => hid_real hN src dst x w1l w1r b1 hx hl hr hb r k) h2 i c]
  rw [add_comm (∑ k, hid hN src dst x w1l w1r b1 i k * w2r k c)]
  rfl
end

end Sage

end
-- ==== Proof.KernelHost.lean ====
/-
  What the kernel program's two grid regions find in their input arrays, as terms of the argument arrays.

  Before the first region the host operations compute the in-degrees and the mean aggregate of the node features;
  between the regions they gather the projected hidden rows the first region wrote, sum them onto their
  destination rows and divide by the same degrees. A host stretch rewrites the buffers it writes, a region its
  output arrays, and both leave every other buffer as it was: so each region's entry contents read back through the
  boundaries to the launch memory.
-/
import proofs.«145353_j652835029486_1_alg».proof.Proof.KernelRun
import proofs.«145353_j652835029486_1_alg».proof.Proof.KernelRegion0
import proofs.«145353_j652835029486_1_alg».proof.Proof.KernelRegion1
import proofs.«145353_j652835029486_1_alg».proof.Proof.Spec
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-! ## The index arrays and the degrees, as functions of the edge list -/

/-- Row 0 of the edge list, flat: the source node of every edge. -/
abbrev srcFlat (ei : IVec S2x500000 32) : IVec S500000 32 :=
  shapeCast _ (extractStridedSlice S1x500000 ![0, 0] ei slices_S2x500000_S1x500000_0_0) shapeCasts_S1x500000_S500000
/-- Row 1 of the edge list, flat: the destination node of every edge. -/
abbrev dstFlat (ei : IVec S2x500000 32) : IVec S500000 32 :=
  shapeCast _ (extractStridedSlice S1x500000 ![1, 0] ei slices_S2x500000_S1x500000_1_0) shapeCasts_S1x500000_S500000
/-- The gather's start indices: the sources, a negative one shifted up by the node count, as a column. -/
abbrev srcI (ei : IVec S2x500000 32) : IVec S500000x1 32 :=
  broadcastInDim S500000x1 ![0] bcast_S500000_S500000x1_0
    (select (cmpi .slt (srcFlat ei) (broadcastInDim S500000 ![] bcast_S_S500000 (constantI S_ 32 0#32)))
      (addi (srcFlat ei) (broadcastInDim S500000 ![] bcast_S_S500000 (constantI S_ 32 200000#32))) (srcFlat ei))
/-- The scatters' indices: the destinations as a column. -/
abbrev dstI (ei : IVec S2x500000 32) : IVec S500000x1 32 :=
  broadcastInDim S500000x1 ![0] bcast_S500000_S500000x1_0 (dstFlat ei)
/-- The in-degrees, at least one, as a column: ones summed onto the destinations from zeros, then the maximum with one. -/
abbrev degCol (ei : IVec S2x500000 32) : FVec Ideal S200000x1 .f32 :=
  broadcastInDim S200000x1 ![0] bcast_S200000_S200000x1_0
    (maximumf (Host.scatterAdd scatter_S200000_S500000x1_S500000_n_0_0_1
        (broadcastInDim S200000 ![] bcast_S_S200000 (constant S_ .f32 0x00000000#32)) (dstI ei)
        (broadcastInDim S500000 ![] bcast_S_S500000 (constant S_ .f32 0x3F800000#32)))
      (broadcastInDim S200000 ![] bcast_S_S200000 (constant S_ .f32 0x3F800000#32)))

/-- The edge list as launched. -/
abbrev ei (c : Dev nD) : IVec S2x500000 32 := m ((c : Thread nD τ).loc main_arg1)

/-! ## The first region's entry contents -/

theorem W1_v1 (c : Dev nD) : W1 m ρ c (Proc.devRef .tc main_v1) = srcFlat (ei m c) := by
  show StableHlo.after hostOps0 (W0 m ρ c) (Proc.devRef .tc main_v1) = _
  after_results
  rfl
theorem W1_v3 (c : Dev nD) : W1 m ρ c (Proc.devRef .tc main_v3) = dstFlat (ei m c) := by
  show StableHlo.after hostOps0 (W0 m ρ c) (Proc.devRef .tc main_v3) = _
  after_results
  rfl
theorem W1_v10 (c : Dev nD) : W1 m ρ c (Proc.devRef .tc main_v10) = degCol (ei m c) := by
  show StableHlo.after hostOps0 (W0 m ρ c) (Proc.devRef .tc main_v10) = _
  after_results
  rfl

/-- The argument arrays as launched, each named at its literal type. -/
abbrev aX (c : Dev nD) : S200000x165.Idx → EReal := m ((c : Thread nD τ).loc main_arg0)
abbrev aW1l (c : Dev nD) : S165x256.Idx → EReal := m ((c : Thread nD τ).loc main_arg2)
abbrev aW1r (c : Dev nD) : S165x256.Idx → EReal := m ((c : Thread nD τ).loc main_arg3)
abbrev aB1 (c : Dev nD) : S256.Idx → EReal := m ((c : Thread nD τ).loc main_arg4)
abbrev aW2l (c : Dev nD) : S256x2.Idx → EReal := m ((c : Thread nD τ).loc main_arg5)
abbrev aW2r (c : Dev nD) : S256x2.Idx → EReal := m ((c : Thread nD τ).loc main_arg6)
abbrev aB2 (c : Dev nD) : S2.Idx → EReal := m ((c : Thread nD τ).loc main_arg7)

theorem V1_X (c : Dev nD) : inX (V1 m ρ) c = aX m c := by
  show StableHlo.after hostOps0 (W0 m ρ c) (Proc.devRef .tc main_arg0) = _
  after_results
theorem V1_W1l (c : Dev nD) : inW1l (V1 m ρ) c = aW1l m c := by
  show StableHlo.after hostOps0 (W0 m ρ c) (Proc.devRef .tc main_arg2) = _
  after_results
theorem V1_W1r (c : Dev nD) : inW1r (V1 m ρ) c = aW1r m c := by
  show StableHlo.after hostOps0 (W0 m ρ c) (Proc.devRef .tc main_arg3) = _
  after_results
theorem V1_W2l (c : Dev nD) : inW2l (V1 m ρ) c = aW2l m c := by
  show StableHlo.after hostOps0 (W0 m ρ c) (Proc.devRef .tc main_arg5) = _
  after_results
/-- The first layer's bias enters the region as a one-row array. -/
theorem V1_B1 (c : Dev nD) : inB1 (V1 m ρ) c = shapeCast S1x256 (aB1 m c) shapeCasts_S256_S1x256 := by
  show StableHlo.after hostOps0 (W0 m ρ c) (Proc.devRef .tc main_v24) = _
  after_results
  rfl
set_option maxHeartbeats 4000000 in
/-- The aggregated features enter the region as the gathered source rows summed onto their destinations from
    zeros, divided by the degree column spread along the features. -/
theorem V1_Agg (c : Dev nD) : inAgg (V1 m ρ) c
    = truncf .bf16 (Host.divf
        (Host.scatterAdd (F := Ideal) scatter_S200000x165_S500000x1_S500000x165_1_0_0_1
          (broadcastInDim S200000x165 ![] bcast_S_S200000x165 (constant S_ .f32 0x00000000#32)) (dstI (ei m c))
          (Host.gather gather_S200000x165_S500000x1_S500000x165_1_0_n_n_0_1_1165 (aX m c) (srcI (ei m c))))
        (broadcastInDim S200000x165 ![0, 1] bcast_S200000x1_S200000x165_0_1 (degCol (ei m c)))) bitsLt_bf16_f32 := by
  show StableHlo.after hostOps0 (W0 m ρ c) (Proc.devRef .tc main_v23) = _
  after_results_simp
  rfl

/-! ## The boundary between the regions, and the second region's entry contents -/

theorem W2_v1 (c : Dev nD) : W2 m ρ c (Proc.devRef .tc main_v1) = srcFlat (ei m c) :=
  (W2_of_ne m ρ c main_v1 (by decide)).trans (W1_v1 m ρ c)
theorem W2_v3 (c : Dev nD) : W2 m ρ c (Proc.devRef .tc main_v3) = dstFlat (ei m c) :=
  (W2_of_ne m ρ c main_v3 (by decide)).trans (W1_v3 m ρ c)
theorem W2_v10 (c : Dev nD) : W2 m ρ c (Proc.devRef .tc main_v10) = degCol (ei m c) :=
  (W2_of_ne m ρ c main_v10 (by decide)).trans (W1_v10 m ρ c)
theorem W2_arg6 (c : Dev nD) : W2 m ρ c (Proc.devRef .tc main_arg6) = aW2r m c :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = aB2 m c :=
  (W2_of_ne m ρ c main_arg7 (by decide)).trans (by
    show StableHlo.after hostOps0 (W0 m ρ c) (Proc.devRef .tc main_arg7) = _
    after_results)
/-- The first region's two output arrays at its exit are what its write-backs leave. -/
theorem W2_hid (c : Dev nD) : W2 m ρ c (Proc.devRef .tc main_v25_0) = outHid (V1 m ρ) c := W2_arr m ρ c 6
theorem W2_proj (c : Dev nD) : W2 m ρ c (Proc.devRef .tc main_v25_1) = outProj (V1 m ρ) c := W2_arr m ρ c 7

theorem V3_hid (c : Dev nD) : inHid (V3 m ρ) c = outHid (V1 m ρ) c := by
  show StableHlo.after hostOps1 (W2 m ρ c) (Proc.devRef .tc main_v25_0) = _
  after_results
  exact W2_hid m ρ c
theorem V3_W2r (c : Dev nD) : inW2r (V3 m ρ) c = aW2r m c := by
  show StableHlo.after hostOps1 (W2 m ρ c) (Proc.devRef .tc main_arg6) = _
  after_results
  exact W2_arg6 m ρ c
/-- The second layer's bias enters the region as a one-row array. -/
theorem V3_B2 (c : Dev nD) : inB2 (V3 m ρ) c = shapeCast S1x2 (aB2 m c) shapeCasts_S2_S1x2 := by
  show StableHlo.after hostOps1 (W2 m ρ c) (Proc.devRef .tc main_v38) = _
  after_results
  rw [W2_arg7]
  rfl
set_option maxHeartbeats 4000000 in
/-- The aggregated projections enter the second region as the gathered rows of the first region's projection
    array summed onto their destinations from zeros, divided by the same degree column. -/
theorem V3_Agg2 (c : Dev nD) : inAgg2 (V3 m ρ) c
    = Host.divf
        (Host.scatterAdd (F := Ideal) scatter_S200000x2_S500000x1_S500000x2_1_0_0_1
          (broadcastInDim S200000x2 ![] bcast_S_S200000x2 (constant S_ .f32 0x00000000#32)) (dstI (ei m c))
          (Host.gather gather_S200000x2_S500000x1_S500000x2_1_0_n_n_0_1_12 (outProj (V1 m ρ) c) (srcI (ei m c))))
        (broadcastInDim S200000x2 ![0, 1] bcast_S200000x1_S200000x2_0_1 (degCol (ei m c))) := by
  show StableHlo.after hostOps1 (W2 m ρ c) (Proc.devRef .tc main_v37) = _
  after_results_simp
  rw [W2_v1, W2_v3, W2_v10, W2_proj]

end Cert.KernelIdeal.Out

end
-- ==== Proof.KernelValue.lean ====
/-
  The kernel program's result, read at an index, at the exact values.

  Between its two grid regions the program runs host operations: before the first region it computes the
  in-degrees and the mean aggregate of the node features; between the regions it gathers the projected hidden rows
  the first region wrote, sums them onto their destination rows and divides by the same degrees. Reading each
  buffer back through the boundaries (a host stretch rewrites the buffers it writes, a region its output arrays,
  and both leave the rest), the result buffer at `(i, c)` is `Sage.kerOut` of the argument arrays: the node's own
  hidden row times the right weights, plus the mean aggregate of the projected rows, plus the bias.
-/
import proofs.«145353_j652835029486_1_alg».proof.Proof.KernelHost
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-! ## The host stages read at an index -/

/-- The host's quotient at an index is the exact quotient of the elements. -/
theorem divf_host_apply {s : Shape} {φ : FTy} (a b : FVec Ideal s φ) (i : s.Idx) : Host.divf a b i = Ideal.div (a i) (b i) := rfl

/-- At the exact values the host's accumulating scatter is the operand plus the sum of the updates that land on
    each element. -/
theorem scatterAdd_exact {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

/-- The program's dimension numbers are those of a scatter of single elements of a flat array, of scatters of whole
    rows 165 and 2 wide, and of gathers of whole rows 165 and 2 wide. -/
theorem flat_rec : scatter_S200000_S500000x1_S500000_n_0_0_1
    = RowOps.flatScatter 200000 500000 Facts₀.scatter_S200000_S500000x1_S500000_n_0_0_1_wf := rfl
theorem rows165_rec : scatter_S200000x165_S500000x1_S500000x165_1_0_0_1
    = RowOps.rowScatter 200000 500000 165 Facts₀.scatter_S200000x165_S500000x1_S500000x165_1_0_0_1_wf := rfl
theorem rows2_rec : scatter_S200000x2_S500000x1_S500000x2_1_0_0_1
    = RowOps.rowScatter 200000 500000 2 Facts₀.scatter_S200000x2_S500000x1_S500000x2_1_0_0_1_wf := rfl
theorem gather165_rec : gather_S200000x165_S500000x1_S500000x165_1_0_n_n_0_1_1165
    = RowOps.rowGather 200000 500000 165 Facts₀.gather_S200000x165_S500000x1_S500000x165_1_0_n_n_0_1_1165_wf := rfl
theorem gather2_rec : gather_S200000x2_S500000x1_S500000x2_1_0_n_n_0_1_12
    = RowOps.rowGather 200000 500000 2 Facts₀.gather_S200000x2_S500000x1_S500000x2_1_0_n_n_0_1_12_wf := rfl

/-- A splat of a scalar constant reads the constant's exact value everywhere. -/
theorem splat_apply {t : Shape} {φ : FTy} (h : S_.BroadcastsInDim t (![] : Fin 0 → Fin t.rank)) (b : BitVec φ.bits) (j : t.Idx) :
    broadcastInDim t ![] h (constant (F := Ideal) S_ φ b) j = Ideal.ofBits φ b := rfl

/-- The sum of ones scattered onto node `i`, from a zero. -/
theorem count_apply (e : IVec S2x500000 32) (i : Fin 200000) :
    (Host.scatterAdd (F := Ideal) scatter_S200000_S500000x1_S500000_n_0_0_1
        (broadcastInDim S200000 ![] bcast_S_S200000 (constant S_ .f32 0x00000000#32)) (dstI e)
        (broadcastInDim S500000 ![] bcast_S_S500000 (constant S_ .f32 0x3F800000#32)) : S200000.Idx → EReal) (ix1 i)
      = MeanAgg.zeroE + ∑ _e ∈ Finset.univ.filter (fun e' : Fin 500000 => RowOps.dstRow? 200000 (dstI e) e' = some i),
          MeanAgg.oneE := by
  rw [scatterAdd_exact, flat_rec, RowOps.scatterAdd_flat_apply]
  rfl

/-- The degree column at row `i` is node `i`'s in-degree, at least one. -/
theorem degCol_apply (e : IVec S2x500000 32) (i : Fin 200000) :
    degCol e (ix2 i (0 : Fin 1)) = MeanAgg.deg (dstI e) i := by
  refine (broadcastInDim_apply ![0] bcast_S200000_S200000x1_0 _ (ix2 i (0 : Fin 1)) (ix1 i) (fun a => match a with
    | ⟨0, _⟩ => by show i.val = if (200000 : Nat) = 1 then 0 else i.val; rw [if_neg (by decide)])).trans ?_
  rw [maximumf_apply, count_apply, splat_apply]
  rfl

/-- The gathered node features summed onto their destination rows, from a zero. -/
theorem sum1_apply (x : S200000x165.Idx → EReal) (e : IVec S2x500000 32) (i : Fin 200000) (k : Fin 165) :
    (Host.scatterAdd (F := Ideal) scatter_S200000x165_S500000x1_S500000x165_1_0_0_1
        (broadcastInDim S200000x165 ![] bcast_S_S200000x165 (constant S_ .f32 0x00000000#32)) (dstI e)
        (Host.gather gather_S200000x165_S500000x1_S500000x165_1_0_n_n_0_1_1165 x (srcI e)) : S200000x165.Idx → EReal) (ix2 i k)
      = MeanAgg.zeroE + ∑ e' ∈ Finset.univ.filter (fun e' : Fin 500000 => RowOps.dstRow? 200000 (dstI e) e' = some i),
          x (ix2 (RowOps.srcRow (N := 200000) (by decide) (srcI e) e') k) := by
  rw [scatterAdd_exact, rows165_rec, RowOps.scatterAdd_rows_apply, splat_apply, gather165_rec]
  simp only [RowOps.gather_rows_apply (N := 200000) (by decide)]

/-- The gathered 2-wide rows summed onto their destination rows, from a zero. -/
theorem sum2_apply (y : S200000x2.Idx → EReal) (e : IVec S2x500000 32) (i : Fin 200000) (c' : Fin 2) :
    (Host.scatterAdd (F := Ideal) scatter_S200000x2_S500000x1_S500000x2_1_0_0_1
        (broadcastInDim S200000x2 ![] bcast_S_S200000x2 (constant S_ .f32 0x00000000#32)) (dstI e)
        (Host.gather gather_S200000x2_S500000x1_S500000x2_1_0_n_n_0_1_12 y (srcI e)) : S200000x2.Idx → EReal) (ix2 i c')
      = MeanAgg.zeroE + ∑ e' ∈ Finset.univ.filter (fun e' : Fin 500000 => RowOps.dstRow? 200000 (dstI e) e' = some i),
          y (ix2 (RowOps.srcRow (N := 200000) (by decide) (srcI e) e') c') := by
  rw [scatterAdd_exact, rows2_rec, RowOps.scatterAdd_rows_apply, splat_apply, gather2_rec]
  simp only [RowOps.gather_rows_apply (N := 200000) (by decide)]

/-- The aggregated features the first region reads are the mean aggregate of the node features. -/
theorem agg1_apply (c : Dev nD) (i : Fin 200000) (k : Fin 165) :
    inAgg (V1 m ρ) c (ix2 i k)
      = MeanAgg.meanAgg (N := 200000) (by decide) (srcI (ei m c)) (dstI (ei m c)) (fun r k' => aX m c (ix2 r k')) i k := by
  rw [V1_Agg, truncf_apply, divf_host_apply, sum1_apply,
    broadcastInDim_apply ![0, 1] bcast_S200000x1_S200000x165_0_1 (degCol (ei m c)) (ix2 i k) (ix2 i (0 : Fin 1)) (fun a => match a with
      | ⟨0, _⟩ => by show i.val = if (200000 : Nat) = 1 then 0 else i.val; rw [if_neg (by decide)]
      | ⟨1, _⟩ => by show 0 = if (1 : Nat) = 1 then 0 else k.val; rw [if_pos rfl]),
    degCol_apply]
  rfl

/-- The aggregated projections the second region reads are the mean aggregate of the first region's projection array. -/
theorem agg2_apply (c : Dev nD) (i : Fin 200000) (c' : Fin 2) :
    inAgg2 (V3 m ρ) c (ix2 i c')
      = MeanAgg.meanAgg (N := 200000) (by decide) (srcI (ei m c)) (dstI (ei m c)) (fun r c'' => outProj (V1 m ρ) c (ix2 r c'')) i c' := by
  rw [V3_Agg2, divf_host_apply, sum2_apply,
    broadcastInDim_apply ![0, 1] bcast_S200000x1_S200000x2_0_1 (degCol (ei m c)) (ix2 i c') (ix2 i (0 : Fin 1)) (fun a => match a with
      | ⟨0, _⟩ => by show i.val = if (200000 : Nat) = 1 then 0 else i.val; rw [if_neg (by decide)]
      | ⟨1, _⟩ => by show 0 = if (1 : Nat) = 1 then 0 else c'.val; rw [if_pos rfl]),
    degCol_apply]
  rfl

/-! ## The regions' arrays as the network's layers -/

/-- The first region's hidden-feature array is the first layer clamped at zero. -/
theorem hid_apply (c : Dev nD) (i : Fin 200000) (j : Fin 256) :
    outHid (V1 m ρ) c (ix2 i j)
      = Sage.hid (N := 200000) (by decide) (srcI (ei m c)) (dstI (ei m c)) (fun r k => aX m c (ix2 r k))
          (fun k j' => aW1l m c (ix2 k j')) (fun k j' => aW1r m c (ix2 k j')) (fun j' => aB1 m c (ix1 j')) i j := by
  rw [region0_hidden]
  unfold Sage.hid Sage.layer
  have e1 : ∀ k : Fin 165, inAgg (V1 m ρ) c (ix2 i k) * inW1l (V1 m ρ) c (ix2 k j)
      = MeanAgg.meanAgg (N := 200000) (by decide) (srcI (ei m c)) (dstI (ei m c)) (fun r k' => aX m c (ix2 r k')) i k
          * aW1l m c (ix2 k j) := fun k => by rw [agg1_apply, V1_W1l]
  have e2 : ∀ k : Fin 165, inX (V1 m ρ) c (ix2 i k) * inW1r (V1 m ρ) c (ix2 k j)
      = aX m c (ix2 i k) * aW1r m c (ix2 k j) := fun k => by rw [V1_X, V1_W1r]
  have e3 : inB1 (V1 m ρ) c (ix2 (0 : Fin 1) j) = aB1 m c (ix1 j) := by
    rw [V1_B1]; exact shapeCast_a_1a_apply _ _ _ _
  rw [Finset.sum_congr rfl (fun k _ => e1 k), Finset.sum_congr rfl (fun k _ => e2 k), e3]

/-- The first region's projection array is every hidden row times the second layer's left weights. -/
theorem proj_apply (c : Dev nD) (i : Fin 200000) (c' : Fin 2) :
    outProj (V1 m ρ) c (ix2 i c')
      = Sage.proj (N := 200000) (by decide) (srcI (ei m c)) (dstI (ei m c)) (fun r k => aX m c (ix2 r k))
          (fun k j' => aW1l m c (ix2 k j')) (fun k j' => aW1r m c (ix2 k j')) (fun j' => aB1 m c (ix1 j'))
          (fun k c'' => aW2l m c (ix2 k c'')) i c' := by
  rw [region0_proj]
  unfold Sage.proj
  exact Finset.sum_congr rfl fun k _ => by rw [hid_apply, V1_W2l]

/-- The result buffer after the run, named at its literal type. -/
abbrev resOut (c : Dev nD) : S200000x2.Idx → EReal := W4 m ρ c (Proc.devRef .tc main_v39)

/-- THE KERNEL PROGRAM'S RESULT at `(i, c')` is the network's logits in the kernel's arrangement. -/
theorem kernel_out (c : Dev nD) (i : Fin 200000) (c' : Fin 2) :
    resOut m ρ c (ix2 i c')
      = Sage.kerOut (N := 200000) (by decide) (srcI (ei m c)) (dstI (ei m c)) (fun r k => aX m c (ix2 r k))
          (fun k j' => aW1l m c (ix2 k j')) (fun k j' => aW1r m c (ix2 k j')) (fun j' => aB1 m c (ix1 j'))
          (fun k c'' => aW2l m c (ix2 k c'')) (fun k c'' => aW2r m c (ix2 k c'')) (fun c'' => aB2 m c (ix1 c'')) i c' := by
  rw [show resOut m ρ c = outLogits (V3 m ρ) c from W4_out m ρ c, region1_out]
  unfold Sage.kerOut
  have e1 : ∀ k : Fin 256, inHid (V3 m ρ) c (ix2 i k) * inW2r (V3 m ρ) c (ix2 k c')
      = Sage.hid (N := 200000) (by decide) (srcI (ei m c)) (dstI (ei m c)) (fun r k => aX m c (ix2 r k))
          (fun k j' => aW1l m c (ix2 k j')) (fun k j' => aW1r m c (ix2 k j')) (fun j' => aB1 m c (ix1 j')) i k
        * aW2r m c (ix2 k c') := fun k => by rw [V3_hid, hid_apply, V3_W2r]
  have e2 : inAgg2 (V3 m ρ) c (ix2 i c')
      = MeanAgg.meanAgg (N := 200000) (by decide) (srcI (ei m c)) (dstI (ei m c))
          (Sage.proj (N := 200000) (by decide) (srcI (ei m c)) (dstI (ei m c)) (fun r k => aX m c (ix2 r k))
            (fun k j' => aW1l m c (ix2 k j')) (fun k j' => aW1r m c (ix2 k j')) (fun j' => aB1 m c (ix1 j'))
            (fun k c'' => aW2l m c (ix2 k c''))) i c' := by
    rw [agg2_apply]
    exact congrArg (fun f => MeanAgg.meanAgg (N := 200000) (by decide) (srcI (ei m c)) (dstI (ei m c)) f i c')
      (funext fun r => funext fun c'' => proj_apply m ρ c r c'')
  have e3 : inB2 (V3 m ρ) c (ix2 (0 : Fin 1) c') = aB2 m c (ix1 c') := by
    rw [V3_B2]; exact shapeCast_a_1a_apply _ _ _ _
  rw [Finset.sum_congr rfl (fun k _ => e1 k), e2, e3]

end Cert.KernelIdeal.Out

end
-- ==== Proof.RefValue.lean ====
/-
  The reference's result, read at an index, at the exact values: the two-layer network as written.

  The reference computes the in-degrees, gathers the source rows of the node features, sums them onto their
  destination rows and divides by the degree; multiplies by the first layer's weights, adds the node's own
  product and the bias, clamps at zero; and applies the same layer shape once more to the 256-wide hidden
  features. Each matrix product is a sum over the contracted coordinate, each gather and accumulating scatter of
  whole rows reads as a sum over the edges that land on the row, so its result at `(i, c)` is `Sage.refOut`.
-/
import proofs.«145353_j652835029486_1_alg».proof.Proof.Gen.ReferenceIdeal.Read
import proofs.«145353_j652835029486_1_alg».proof.Proof.Spec

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The gather's start indices, from the edge list: row 0 of the edge list, a negative entry shifted up by the
    node count, as a column. -/
abbrev srcI (ei : IVec S2x500000 32) : IVec S500000x1 32 := val_main_v13 (F := Ideal) ei
/-- The scatter's indices, from the edge list: row 1 of the edge list as a column. -/
abbrev dstI (ei : IVec S2x500000 32) : IVec S500000x1 32 := val_main_v16 (F := Ideal) ei

/-- At the exact values the host's accumulating scatter is the operand plus the sum of the updates that land on
    each element. -/
theorem scatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

/-- The program's dimension numbers are those of a scatter of single elements of a flat array … -/
theorem flat_rec : scatter_S200000_S500000x1_S500000_n_0_0_1
    = RowOps.flatScatter 200000 500000 Facts₀.scatter_S200000_S500000x1_S500000_n_0_0_1_wf := rfl
/-- … of a scatter of whole rows, 165 and 256 wide … -/
theorem row165_rec : scatter_S200000x165_S500000x1_S500000x165_1_0_0_1
    = RowOps.rowScatter 200000 500000 165 Facts₀.scatter_S200000x165_S500000x1_S500000x165_1_0_0_1_wf := rfl
theorem row256_rec : scatter_S200000x256_S500000x1_S500000x256_1_0_0_1
    = RowOps.rowScatter 200000 500000 256 Facts₀.scatter_S200000x256_S500000x1_S500000x256_1_0_0_1_wf := rfl
/-- … and of a gather of whole rows, 165 and 256 wide. -/
theorem gather165_rec : gather_S200000x165_S500000x1_S500000x165_1_0_n_n_0_1_1165
    = RowOps.rowGather 200000 500000 165 Facts₀.gather_S200000x165_S500000x1_S500000x165_1_0_n_n_0_1_1165_wf := rfl
theorem gather256_rec : gather_S200000x256_S500000x1_S500000x256_1_0_n_n_0_1_1256
    = RowOps.rowGather 200000 500000 256 Facts₀.gather_S200000x256_S500000x1_S500000x256_1_0_n_n_0_1_1256_wf := rfl

/-- The degree's scatter reads the same column of destinations as the feature scatter. -/
theorem v6_eq (x1 : IVec S2x500000 32) : val_main_v6 (F := Ideal) x1 = dstI x1 := rfl
/-- The second layer recomputes the same destinations … -/
theorem v36_eq (x1 : IVec S2x500000 32) : val_main_v36 (F := Ideal) x1 = dstI x1 := rfl
theorem v46_eq (x1 : IVec S2x500000 32) : val_main_v46 (F := Ideal) x1 = dstI x1 := rfl
/-- … and the same sources. -/
theorem v43_eq (x1 : IVec S2x500000 32) : val_main_v43 (F := Ideal) x1 = srcI x1 := rfl

/-- The sum of ones scattered onto node `i`, from a zero. -/
theorem v7_at (x1 : IVec S2x500000 32) (i : Fin 200000) :
    (val_main_v7 (F := Ideal) x1 : S200000.Idx → EReal) (ix1 i)
      = MeanAgg.zeroE + ∑ _e ∈ Finset.univ.filter (fun e : Fin 500000 => RowOps.dstRow? 200000 (dstI x1) e = some i),
          MeanAgg.oneE := by
  unfold val_main_v7
  rw [scatterAdd_ideal, v6_eq, flat_rec, RowOps.scatterAdd_flat_apply, val_main_v5_apply, val_main_cst_0_apply]
  simp only [val_main_v4_apply, val_main_cst_apply]
  rfl

/-- The first layer's degree of node `i`. -/
theorem v19_at (x1 : IVec S2x500000 32) (i : Fin 200000) :
    (val_main_v19 (F := Ideal) x1 : S200000.Idx → EReal) (ix1 i) = MeanAgg.deg (dstI x1) i := by
  rw [val_main_v19_apply, v7_at, val_main_v18_apply, val_main_cst_3_apply, Ideal.maximumf_def]
  rfl

/-- The second layer's sum of ones is the first's … -/
theorem v37_at (x1 : IVec S2x500000 32) (i : Fin 200000) :
    (val_main_v37 (F := Ideal) x1 : S200000.Idx → EReal) (ix1 i)
      = MeanAgg.zeroE + ∑ _e ∈ Finset.univ.filter (fun e : Fin 500000 => RowOps.dstRow? 200000 (dstI x1) e = some i),
          MeanAgg.oneE := by
  unfold val_main_v37
  rw [scatterAdd_ideal, v36_eq, flat_rec, RowOps.scatterAdd_flat_apply, val_main_v35_apply, val_main_cst_5_apply]
  simp only [val_main_v34_apply, val_main_cst_4_apply]
  rfl

/-- … and so is its degree. -/
theorem v49_at (x1 : IVec S2x500000 32) (i : Fin 200000) :
    (val_main_v49 (F := Ideal) x1 : S200000.Idx → EReal) (ix1 i) = MeanAgg.deg (dstI x1) i := by
  rw [val_main_v49_apply, v37_at, val_main_v48_apply, val_main_cst_9_apply, Ideal.maximumf_def]
  rfl

/-- The gathered features: edge `e` reads its source row. -/
theorem v14_at (x0 : S200000x165.Idx → EReal) (x1 : IVec S2x500000 32) (e : Fin 500000) (k : Fin 165) :
    (val_main_v14 (F := Ideal) x0 x1 : S500000x165.Idx → EReal) (ix2 e k)
      = x0 (ix2 (RowOps.srcRow (N := 200000) (by decide) (srcI x1) e) k) := by
  unfold val_main_v14
  rw [gather165_rec, RowOps.gather_rows_apply (by decide)]

/-- The gathered rows summed onto their destination rows, from a zero. -/
theorem v17_at (x0 : S200000x165.Idx → EReal) (x1 : IVec S2x500000 32) (i : Fin 200000) (k : Fin 165) :
    (val_main_v17 (F := Ideal) x0 x1 : S200000x165.Idx → EReal) (ix2 i k)
      = MeanAgg.zeroE + ∑ e ∈ Finset.univ.filter (fun e : Fin 500000 => RowOps.dstRow? 200000 (dstI x1) e = some i),
          x0 (ix2 (RowOps.srcRow (N := 200000) (by decide) (srcI x1) e) k) := by
  unfold val_main_v17
  rw [scatterAdd_ideal, row165_rec, RowOps.scatterAdd_rows_apply, val_main_v15_apply, val_main_cst_2_apply]
  simp only [v14_at]
  rfl

/-- The first layer's mean aggregate of the node features. -/
theorem v22_at (x0 : S200000x165.Idx → EReal) (x1 : IVec S2x500000 32) (i : Fin 200000) (k : Fin 165) :
    (val_main_v22 (F := Ideal) x0 x1 : S200000x165.Idx → EReal) (ix2 i k)
      = MeanAgg.meanAgg (N := 200000) (by decide) (srcI x1) (dstI x1) (fun r k' => x0 (ix2 r k')) i k := by
  have hi : idx_main_v20 (idx_main_v21 (ix2 i k)) = ix1 i := by
    funext a
    match a with
    | ⟨0, _⟩ => rfl
  rw [val_main_v22_apply, v17_at, val_main_v21_apply, val_main_v20_apply, hi, v19_at, Ideal.hostDivf_def]
  rfl

/-- The aggregated features times the first layer's left weights. -/
theorem v23_at (x0 : S200000x165.Idx → EReal) (x1 : IVec S2x500000 32) (x2 : S165x256.Idx → EReal)
    (i : Fin 200000) (j : Fin 256) :
    (val_main_v23 (F := Ideal) x0 x1 x2 : S200000x256.Idx → EReal) (ix2 i j)
      = ∑ k : Fin 165, MeanAgg.meanAgg (N := 200000) (by decide) (srcI x1) (dstI x1) (fun r k' => x0 (ix2 r k')) i k
          * x2 (ix2 k j) := by
  rw [val_main_v23_apply]
  refine Finset.sum_congr rfl fun k _ => ?_
  have hl : lidx_main_v23 (ix2 i j) k = ix2 i k := by
    funext a
    match a with
    | ⟨0, _⟩ => rfl
    | ⟨1, _⟩ => rfl
  have hr : ridx_main_v23 (ix2 i j) k = ix2 k j := by
    funext a
    match a with
    | ⟨0, _⟩ => rfl
    | ⟨1, _⟩ => rfl
  rw [hl, hr, v22_at]

/-- The node's own features times the first layer's right weights. -/
theorem v24_at (x0 : S200000x165.Idx → EReal) (x3 : S165x256.Idx → EReal) (i : Fin 200000) (j : Fin 256) :
    (val_main_v24 (F := Ideal) x0 x3 : S200000x256.Idx → EReal) (ix2 i j)
      = ∑ k : Fin 165, x0 (ix2 i k) * x3 (ix2 k j) := by
  rw [val_main_v24_apply]
  refine Finset.sum_congr rfl fun k _ => ?_
  have hl : lidx_main_v24 (ix2 i j) k = ix2 i k := by
    funext a
    match a with
    | ⟨0, _⟩ => rfl
    | ⟨1, _⟩ => rfl
  have hr : ridx_main_v24 (ix2 i j) k = ix2 k j := by
    funext a
    match a with
    | ⟨0, _⟩ => rfl
    | ⟨1, _⟩ => rfl
  rw [hl, hr]

/-- The hidden features: the first layer clamped below at zero. -/
theorem v29_at (x0 : S200000x165.Idx → EReal) (x1 : IVec S2x500000 32) (x2 x3 : S165x256.Idx → EReal)
    (x4 : S256.Idx → EReal) (i : Fin 200000) (j : Fin 256) :
    (val_main_v29 (F := Ideal) x0 x1 x2 x3 x4 : S200000x256.Idx → EReal) (ix2 i j)
      = Sage.hid (N := 200000) (by decide) (srcI x1) (dstI x1) (fun r k => x0 (ix2 r k))
          (fun k j' => x2 (ix2 k j')) (fun k j' => x3 (ix2 k j')) (fun j' => x4 (ix1 j')) i j := by
  have hb : idx_main_v26 (idx_main_v27 (ix2 i j)) = ix1 j := by
    funext a
    match a with
    | ⟨0, _⟩ => rfl
  rw [val_main_v29_apply, val_main_v28_apply, val_main_v25_apply, v23_at, v24_at, val_main_v27_apply,
    val_main_v26_apply, hb, val_main_call0_v0_apply, val_main_call0_cst_apply, Ideal.maximumf_def, Ideal.addf_def,
    Ideal.addf_def]
  rfl

/-- The gathered hidden features: edge `e` reads its source row. -/
theorem v44_at (x0 : S200000x165.Idx → EReal) (x1 : IVec S2x500000 32) (x2 x3 : S165x256.Idx → EReal)
    (x4 : S256.Idx → EReal) (e : Fin 500000) (k : Fin 256) :
    (val_main_v44 (F := Ideal) x0 x1 x2 x3 x4 : S500000x256.Idx → EReal) (ix2 e k)
      = (val_main_v29 (F := Ideal) x0 x1 x2 x3 x4 : S200000x256.Idx → EReal)
          (ix2 (RowOps.srcRow (N := 200000) (by decide) (srcI x1) e) k) := by
  unfold val_main_v44
  rw [v43_eq, gather256_rec, RowOps.gather_rows_apply (by decide)]

/-- The gathered hidden rows summed onto their destination rows, from a zero. -/
theorem v47_at (x0 : S200000x165.Idx → EReal) (x1 : IVec S2x500000 32) (x2 x3 : S165x256.Idx → EReal)
    (x4 : S256.Idx → EReal) (i : Fin 200000) (k : Fin 256) :
    (val_main_v47 (F := Ideal) x0 x1 x2 x3 x4 : S200000x256.Idx → EReal) (ix2 i k)
      = MeanAgg.zeroE + ∑ e ∈ Finset.univ.filter (fun e : Fin 500000 => RowOps.dstRow? 200000 (dstI x1) e = some i),
          Sage.hid (N := 200000) (by decide) (srcI x1) (dstI x1) (fun r k' => x0 (ix2 r k'))
            (fun k' j' => x2 (ix2 k' j')) (fun k' j' => x3 (ix2 k' j')) (fun j' => x4 (ix1 j'))
            (RowOps.srcRow (N := 200000) (by decide) (srcI x1) e) k := by
  unfold val_main_v47
  rw [scatterAdd_ideal, v46_eq, row256_rec, RowOps.scatterAdd_rows_apply, val_main_v45_apply, val_main_cst_8_apply]
  simp only [v44_at, v29_at]
  rfl

/-- The second layer's mean aggregate of the hidden features. -/
theorem v52_at (x0 : S200000x165.Idx → EReal) (x1 : IVec S2x500000 32) (x2 x3 : S165x256.Idx → EReal)
    (x4 : S256.Idx → EReal) (i : Fin 200000) (k : Fin 256) :
    (val_main_v52 (F := Ideal) x0 x1 x2 x3 x4 : S200000x256.Idx → EReal) (ix2 i k)
      = MeanAgg.meanAgg (N := 200000) (by decide) (srcI x1) (dstI x1)
          (Sage.hid (N := 200000) (by decide) (srcI x1) (dstI x1) (fun r k' => x0 (ix2 r k'))
            (fun k' j' => x2 (ix2 k' j')) (fun k' j' => x3 (ix2 k' j')) (fun j' => x4 (ix1 j'))) i k := by
  have hi : idx_main_v50 (idx_main_v51 (ix2 i k)) = ix1 i := by
    funext a
    match a with
    | ⟨0, _⟩ => rfl
  rw [val_main_v52_apply, v47_at, val_main_v51_apply, val_main_v50_apply, hi, v49_at, Ideal.hostDivf_def]
  rfl

/-- The aggregated hidden features times the second layer's left weights. -/
theorem v53_at (x0 : S200000x165.Idx → EReal) (x1 : IVec S2x500000 32) (x2 x3 : S165x256.Idx → EReal)
    (x4 : S256.Idx → EReal) (x5 : S256x2.Idx → EReal) (i : Fin 200000) (c : Fin 2) :
    (val_main_v53 (F := Ideal) x0 x1 x2 x3 x4 x5 : S200000x2.Idx → EReal) (ix2 i c)
      = ∑ k : Fin 256, MeanAgg.meanAgg (N := 200000) (by decide) (srcI x1) (dstI x1)
          (Sage.hid (N := 200000) (by decide) (srcI x1) (dstI x1) (fun r k' => x0 (ix2 r k'))
            (fun k' j' => x2 (ix2 k' j')) (fun k' j' => x3 (ix2 k' j')) (fun j' => x4 (ix1 j'))) i k
          * x5 (ix2 k c) := by
  rw [val_main_v53_apply]
  refine Finset.sum_congr rfl fun k _ => ?_
  have hl : lidx_main_v53 (ix2 i c) k = ix2 i k := by
    funext a
    match a with
    | ⟨0, _⟩ => rfl
    | ⟨1, _⟩ => rfl
  have hr : ridx_main_v53 (ix2 i c) k = ix2 k c := by
    funext a
    match a with
    | ⟨0, _⟩ => rfl
    | ⟨1, _⟩ => rfl
  rw [hl, hr, v52_at]

/-- The node's own hidden features times the second layer's right weights. -/
theorem v54_at (x0 : S200000x165.Idx → EReal) (x1 : IVec S2x500000 32) (x2 x3 : S165x256.Idx → EReal)
    (x4 : S256.Idx → EReal) (x6 : S256x2.Idx → EReal) (i : Fin 200000) (c : Fin 2) :
    (val_main_v54 (F := Ideal) x0 x1 x2 x3 x4 x6 : S200000x2.Idx → EReal) (ix2 i c)
      = ∑ k : Fin 256, Sage.hid (N := 200000) (by decide) (srcI x1) (dstI x1) (fun r k' => x0 (ix2 r k'))
            (fun k' j' => x2 (ix2 k' j')) (fun k' j' => x3 (ix2 k' j')) (fun j' => x4 (ix1 j')) i k
          * x6 (ix2 k c) := by
  rw [val_main_v54_apply]
  refine Finset.sum_congr rfl fun k _ => ?_
  have hl : lidx_main_v54 (ix2 i c) k = ix2 i k := by
    funext a
    match a with
    | ⟨0, _⟩ => rfl
    | ⟨1, _⟩ => rfl
  have hr : ridx_main_v54 (ix2 i c) k = ix2 k c := by
    funext a
    match a with
    | ⟨0, _⟩ => rfl
    | ⟨1, _⟩ => rfl
  rw [hl, hr, v29_at]

/-- The reference's result array at `(i, c)` is the two-layer network of the argument arrays. -/
theorem ref_out (x0 : S200000x165.Idx → EReal) (x1 : IVec S2x500000 32) (x2 x3 : S165x256.Idx → EReal)
    (x4 : S256.Idx → EReal) (x5 x6 : S256x2.Idx → EReal) (x7 : S2.Idx → EReal) (i : Fin 200000) (c : Fin 2) :
    (val_main_v58 (F := Ideal) x0 x1 x2 x3 x4 x5 x6 x7 : S200000x2.Idx → EReal) (ix2 i c)
      = Sage.refOut (N := 200000) (by decide) (srcI x1) (dstI x1) (fun r k => x0 (ix2 r k))
          (fun k j => x2 (ix2 k j)) (fun k j => x3 (ix2 k j)) (fun j => x4 (ix1 j))
          (fun k c' => x5 (ix2 k c')) (fun k c' => x6 (ix2 k c')) (fun c' => x7 (ix1 c')) i c := by
  have hb : idx_main_v56 (idx_main_v57 (ix2 i c)) = ix1 c := by
    funext a
    match a with
    | ⟨0, _⟩ => rfl
  rw [val_main_v58_apply, val_main_v55_apply, v53_at, v54_at, val_main_v57_apply, val_main_v56_apply, hb,
    Ideal.addf_def, Ideal.addf_def]
  rfl

end Cert.ReferenceIdeal.RefValue

end
-- ==== Proof.Finite.lean ====
/-
  From the precondition to real numbers: when the predicate "every float input is finite" holds of the
  argument arrays at the exact instance, every element of every float argument is a real number.

  The predicate is the conjunction, over the seven float arguments, of "every element's absolute value is below
  +infinity". At the exact instance an element is an extended real, its absolute value is below +infinity exactly
  when it is neither infinity, and an extended real that is neither infinity is a real number.
-/
import proofs.«145353_j652835029486_1_alg».proof.Pre_finite_inputs
import proofs.«145353_j652835029486_1_alg».proof.Proof.LibMeanAgg
import Idealize.ShloMosaic.Lib.ReduceAll

set_option maxRecDepth 16384

noncomputable section

namespace Cert.Pre_finite_inputs.Real

open Cert.Pre_finite_inputs
open Idealize.ShloMosaic Idealize.ShloMosaic.ValueIdx MeanAgg

/-- The scalar shape has one index. -/
instance : Subsingleton S_.Idx := ⟨fun a b => funext fun d => d.elim0⟩

/-- The float word of `+infinity`, read exactly, is the top of the extended reals. -/
theorem ofBits_inf : Ideal.ofBits .f32 0x7F800000#32 = ⊤ := by
  simp [Ideal.ofBits, Ideal.ieee]

/-- An extended real whose absolute value is below `+infinity` is a real number. -/
theorem isReal_of_abs_lt_top (x : EReal) (h : max x (-x) < ⊤) : IsReal x := by
  induction x using EReal.rec with
  | bot => simp at h
  | coe r => exact ⟨r, rfl⟩
  | top => simp at h

/-- One array's test, read back: where "every element's absolute value is below `+infinity`" reduces by `and` over
    all axes to one, every element of the array is a real number. -/
theorem all_real {s : Shape} {axes : List (Fin s.rank)} (hb : S_.BroadcastsInDim s (![] : Fin 0 → Fin s.rank))
    (hr : s.ReducesTo axes S_) (hu : 0 < S_.numel) (a : FVec Ideal s .f32) (init : IVec S_ 1) (j : S_.Idx)
    (h : Host.reduce IntOp.andi (cmpf .olt (Host.absf a) (broadcastInDim s ![] hb (constant S_ .f32 0x7F800000#32)))
      init hr hu j = 1#1) (i : s.Idx) : IsReal (a i) := by
  have hi := Host.reduce_andi_all _ _ hr hu j h i
  refine isReal_of_abs_lt_top (a i) ?_
  have hc : Ideal.cmp .olt (max (a i) (-(a i))) (Ideal.ofBits .f32 0x7F800000#32) = 1#1 := hi
  rw [ofBits_inf] at hc
  unfold Ideal.cmp at hc
  by_contra hlt
  simp [hlt] at hc

/-- Where the precondition's predicate is all ones, every float argument's every element is a real number. -/
theorem real_of_fn [Cert.Pre_finite_inputs.Facts] (a0 : FVec Ideal S200000x165 .f32) (a1 : IVec S2x500000 32)
    (a2 a3 : FVec Ideal S165x256 .f32) (a4 : FVec Ideal S256 .f32) (a5 a6 : FVec Ideal S256x2 .f32)
    (a7 : FVec Ideal S2 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ValueIdx.ix0
  dsimp only [Cert.Pre_finite_inputs.fn, Cert.Pre_finite_inputs.fn_part1] at h0
  simp only [andi, IntOp.andi_eq_one] at h0
  obtain ⟨⟨⟨⟨⟨⟨e0, e2⟩, e3⟩, e4⟩, e5⟩, e6⟩, e7⟩ := h0
  exact ⟨all_real _ _ _ a0 _ _ e0, all_real _ _ _ a2 _ _ e2, all_real _ _ _ a3 _ _ e3, all_real _ _ _ a4 _ _ e4,
    all_real _ _ _ a5 _ _ e5, all_real _ _ _ a6 _ _ e6, all_real _ _ _ a7 _ _ e7⟩

end Cert.Pre_finite_inputs.Real

end
-- ==== Proof.lean ====
/-
  The certificate of a two-layer GraphSAGE network (mean aggregation over in-edges) in a tiled kernel program
  against its reference, over the extended reals.

  Both programs compute the in-degrees and the mean aggregate of the node features with the same host
  operations, and the same first layer `hidden = max(agg · W1l + x · W1r + b1, 0)`: the kernel program block by
  block over the node axis in a grid region, the reference in whole-array matrix products. They differ in the
  second layer: the reference aggregates the 256-wide hidden rows and multiplies the aggregate by `W2l`; the
  kernel program multiplies every hidden row by `W2l` inside its first region and aggregates the 2-wide products
  between its regions, adding them to `hidden · W2r + b2` in its second region. The mean aggregate is a weighted
  sum, so for finite inputs it commutes with the matrix product (`MeanAgg.meanAgg_matmul`); the precondition gives
  the finiteness. The three frames are the generated ones; the ideal pass rewrote nothing.
-/
import proofs.«145353_j652835029486_1_alg».proof.Defs
import proofs.«145353_j652835029486_1_alg».proof.Proof.Gen.Kernel
import proofs.«145353_j652835029486_1_alg».proof.Proof.Gen.Kernel.Skeleton
import proofs.«145353_j652835029486_1_alg».proof.Proof.Gen.Kernel.Launch
import proofs.«145353_j652835029486_1_alg».proof.Proof.Gen.Kernel.Points
import proofs.«145353_j652835029486_1_alg».proof.Proof.Gen.Kernel.Frame
import proofs.«145353_j652835029486_1_alg».proof.Proof.Gen.KernelIdeal
import proofs.«145353_j652835029486_1_alg».proof.Proof.Gen.KernelIdeal.Skeleton
import proofs.«145353_j652835029486_1_alg».proof.Proof.Gen.KernelIdeal.Launch
import proofs.«145353_j652835029486_1_alg».proof.Proof.Gen.KernelIdeal.Points
import proofs.«145353_j652835029486_1_alg».proof.Proof.Gen.KernelIdeal.Frame
import proofs.«145353_j652835029486_1_alg».proof.Proof.Gen.ReferenceIdeal
import proofs.«145353_j652835029486_1_alg».proof.Proof.Gen.Pre_finite_inputs
import proofs.«145353_j652835029486_1_alg».proof.Proof.Gen.ReferenceIdeal.Run
import proofs.«145353_j652835029486_1_alg».proof.Proof.Gen.ReferenceIdeal.Read
import proofs.«145353_j652835029486_1_alg».proof.Proof.KernelValue
import proofs.«145353_j652835029486_1_alg».proof.Proof.RefValue
import proofs.«145353_j652835029486_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The two programs build the gather's start indices from the edge list by the same operations. -/
theorem srcI_eq (e : IVec Cert.KernelIdeal.S2x500000 32) :
    Cert.ReferenceIdeal.RefValue.srcI e = Cert.KernelIdeal.Out.srcI e := rfl
/-- And the scatters' indices. -/
theorem dstI_eq (e : IVec Cert.KernelIdeal.S2x500000 32) :
    Cert.ReferenceIdeal.RefValue.dstI e = Cert.KernelIdeal.Out.dstI e := rfl

/-- From memories that agree on the arguments, under the precondition, the reference's result is the kernel
    program's result buffer after its run: index by index both are the network's logits, the reference's in the order
    aggregate-then-multiply and the kernel's in the order multiply-then-aggregate, equal for finite inputs. -/
theorem value_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (c : Dev Cert.KernelIdeal.nD) :
    Cert.ReferenceIdeal.Value.res_main_v58 (F := Ideal) m' c = Cert.KernelIdeal.Out.resOut m ρ c := by
  obtain ⟨a0, a1, a2, a3, a4, a5, a6, a7⟩ := hagree c
  obtain ⟨f0, f2, f3, f4, f5, -, -⟩ := Cert.Pre_finite_inputs.Real.real_of_fn _ _ _ _ _ _ _ _ (hpre c)
  rw [Cert.ReferenceIdeal.Read.val_main_v58_eq, a0, a1, a2, a3, a4, a5, a6, a7]
  funext j
  obtain ⟨i, c', rfl⟩ : ∃ (i : Fin 200000) (c' : Fin 2), j = ix2 i c' := ⟨j 0, j 1, eq_ix2 j⟩
  refine (Cert.ReferenceIdeal.RefValue.ref_out _ _ _ _ _ _ _ _ i c').trans ?_
  rw [srcI_eq, dstI_eq]
  refine Eq.trans ?_ (Cert.KernelIdeal.Out.kernel_out m ρ c i c').symm
  exact (Sage.kerOut_eq_refOut (N := 200000) (by decide) _ _ _ _ _ _ _ _ _
    (fun r k => f0 _) (fun k j' => f2 _) (fun k j' => f3 _) (fun j' => f4 _) (fun k c'' => f5 _) i c').symm

theorem frame_k : Cert.frame_Kernel := fun m ρ _ => Cert.Kernel.Gen.frame m ρ
theorem frame_ki : Cert.frame_KernelIdeal := fun m ρ _ => Cert.KernelIdeal.Gen.frame m ρ
/-- The reference has no kernel: its frame is its generated run with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs run, the kernel program's result buffer and the reference's result hold the same array, and the
    returned edge list is the argument. -/
theorem algebraic : Cert.algebraic_KernelIdeal_ReferenceIdeal := by
  intro m ρ m' ρ' hpre hagree
  refine ⟨fun c => Cert.KernelIdeal.Out.resOut m ρ c,
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.Out.run_out (F := Ideal) m ρ)
    obtain ⟨h0, h1, h2, h3, h4, h5, h6, h7, h8⟩ := h c
    exact ⟨h0, h2, h1, h2, h3, h4, h5, h6, h7, h8⟩
  · refine (θ_run Cert.ReferenceIdeal.defs _ _).mono (fun r h c => ?_) (Cert.ReferenceIdeal.Value.run (F := Ideal) m' ρ')
    obtain ⟨h0, h1, hrest⟩ := h c
    exact ⟨h0.trans (value_eq m ρ m' hpre hagree c), h1.trans (hagree c).2.1, hrest⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
